-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x64 : Shape := ⟨2, ![40000, 64]⟩
abbrev S200000x64 : Shape := ⟨2, ![200000, 64]⟩
abbrev S500000x64 : Shape := ⟨2, ![500000, 64]⟩
abbrev S500000x3 : Shape := ⟨2, ![500000, 3]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S40000x64 : S_.BroadcastsInDim S40000x64 (![] : Fin 0 → Fin S40000x64.rank)
  reducesTo_S40000x64_S_d0_1 : S40000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S500000x64 : S_.BroadcastsInDim S500000x64 (![] : Fin 0 → Fin S500000x64.rank)
  reducesTo_S500000x64_S_d0_1 : S500000x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x64 .f32) (main_arg14 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64 .f32) (main_arg9 : FVec F S256x64 .f32) (main_arg10 : FVec F S64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_v48 main_v49 main_v50

def fn_part1 {F : FTy → Type} [FloatOps F] (main_arg5 : FVec F S256x64 .f32) (main_arg6 : FVec F S64 .f32) (main_arg7 : FVec F S64x64 .f32) (main_arg8 : FVec F S64 .f32) (main_arg9 : FVec F S256x64 .f32) (main_arg10 : FVec F S64 .f32) (main_arg11 : FVec F S64x64 .f32) (main_arg12 : FVec F S64 .f32) (main_arg13 : FVec F S64x64 .f32) (main_arg14 : FVec F S64 .f32) (main_v13 : IVec S_ 1) (main_v16 : IVec S500000x64 1) : IVec S_ 1 :=
  let main_c_5 : IVec S_ 1 := constantI S_ 1 1#1
  let main_v17 : IVec S_ 1 := (fun x v => Host.reduce IntOp.andi x v reducesTo_S500000x64_S_d0_1 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S40000x64 .f32) (main_arg1 : FVec F S200000x64 .f32) (main_arg2 : FVec F S200000x64 .f32) (main_arg3 : FVec F S500000x64 .f32) (main_arg4 : IVec S500000x3 32) (main_arg5 : FVec F S256x64 .f32) (main_arg6 : FVec F S64 .f32) (main_arg7 : FVec F S64x64 .f32) (main_arg8 : FVec F S64 .f32) (main_arg9 : FVec F S256x64 .f32) (main_arg10 : FVec F S64 .f32) (main_arg11 : FVec F S64x64 .f32) (main_arg12 : FVec F S64 .f32) (main_arg13 : FVec F S64x64 .f32) (main_arg14 : FVec F S64 .f32) : IVec S_ 1 :=
  let main_v0 : FVec F S40000x64 .f32 := Host.absf main_arg0
  let main_cst : FVec F S_ .f32 := constant S_ .f32 0x7F800000#32
  let main_v1 : FVec F S40000x64 .f32 := broadcastInDim S40000x64 ![] bcast_S_S40000x64 main_cst
  let main_v2 : IVec S40000x64 1 := cmpf .olt main_v0 main_v1
  let main_c : IVec S_ 1 := constantI S_ 1 1#1
  let main_v3 : IVec S_ 1 := (fun x v => Host.reduce IntOp.andi x v reducesTo_S40000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S200000x64 .f32 := Host.absf main_arg2
  let main_cst_2 : FVec F S_ .f32 := constant S_ .f32 0x7F800000#32
  let main_v10 : FVec F S200000x64 .f32 := broadcastInDim S200000x64 ![] bcast_S_S200000x64 main_cst_2
  let main_v11 : IVec S200000x64 1 := cmpf .olt main_v9 main_v10
  let main_c_3 : IVec S_ 1 := constantI S_ 1 1#1
  let main_v12 : IVec S_ 1 := (fun x v => Host.reduce IntOp.andi x v reducesTo_S200000x64_S_d0_1 h_S_) main_v11 main_c_3
  let main_v13 : IVec S_ 1 := andi main_v8 main_v12
  let main_v14 : FVec F S500000x64 .f32 := Host.absf main_arg3
  let main_cst_4 : FVec F S_ .f32 := constant S_ .f32 0x7F800000#32
  let main_v15 : FVec F S500000x64 .f32 := broadcastInDim S500000x64 ![] bcast_S_S500000x64 main_cst_4
  let main_v16 : IVec S500000x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S40000x64 : Shape := ⟨2, ![40000, 64]⟩
abbrev S200000x64 : Shape := ⟨2, ![200000, 64]⟩
abbrev S500000x64 : Shape := ⟨2, ![500000, 64]⟩
abbrev S500000x3 : Shape := ⟨2, ![500000, 3]⟩
abbrev S256x64 : Shape := ⟨2, ![256, 64]⟩
abbrev S64 : Shape := ⟨1, ![64]⟩
abbrev S64x64 : Shape := ⟨2, ![64, 64]⟩
abbrev S500000x1 : Shape := ⟨2, ![500000, 1]⟩
abbrev S500000 : Shape := ⟨1, ![500000]⟩
abbrev S_ : Shape := ⟨0, ![]⟩
abbrev S1x64 : Shape := ⟨2, ![1, 64]⟩
abbrev S5000x64 : Shape := ⟨2, ![5000, 64]⟩
abbrev S5000x256 : Shape := ⟨2, ![5000, 256]⟩

abbrev nBuf : Space → Nat
  | .hbm => 83
  | .vmem => 28
  | .smem => 0
  | _ => 0

abbrev bufTy : (tb : Table) → Fin (tcTables nBuf tb) → BufTy
  | .hbm, ⟨0, _⟩ => ⟨S40000x64, .f32⟩
  | .hbm, ⟨1, _⟩ => ⟨S200000x64, .f32⟩
  | .hbm, ⟨2, _⟩ => ⟨S200000x64, .f32⟩
  | .hbm, ⟨3, _⟩ => ⟨S500000x64, .f32⟩
  | .hbm, ⟨4, _⟩ => ⟨S500000x3, .i32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S256x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S500000x1, .i32⟩
  | .hbm, ⟨16, _⟩ => ⟨S500000, .i32⟩
  | .hbm, ⟨17, _⟩ => ⟨S500000x1, .i32⟩
  | .hbm, ⟨18, _⟩ => ⟨S500000, .i32⟩
  | .hbm, ⟨19, _⟩ => ⟨S500000x1, .i32⟩
  | .hbm, ⟨20, _⟩ => ⟨S500000, .i32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x64, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x64, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x64, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x64, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x64, .f32⟩
  | .hbm, ⟨66, _⟩ => ⟨S500000x64, .f32⟩
  | .hbm, ⟨67, _⟩ => ⟨S256x64, .bf16⟩
  | .hbm, ⟨68, _⟩ => ⟨S64x64, .bf16⟩
  | .hbm, ⟨69, _⟩ => ⟨S256x64, .bf16⟩
  | .hbm, ⟨70, _⟩ => ⟨S64x64, .bf16⟩
  | .hbm, ⟨71, _⟩ => ⟨S64x64, .bf16⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S500000x64, .f32⟩
  | .hbm, ⟨78, _⟩ => ⟨S_, .f32⟩
  | .hbm, ⟨79, _⟩ => ⟨S200000x64, .f32⟩
  | .hbm, ⟨80, _⟩ => ⟨S500000x1, .i32⟩
  | .hbm, ⟨81, _⟩ => ⟨S200000x64, .f32⟩
  | .hbm, ⟨82, _⟩ => ⟨S200000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S256x64, .bf16⟩
  | .local _ .vmem, ⟨11, _⟩ => ⟨S1x64, .f32⟩
  | .local _ .vmem, ⟨12, _⟩ => ⟨S64x64, .bf16⟩
  | .local _ .vmem, ⟨13, _⟩ => ⟨S1x64, .f32⟩
  | .local _ .vmem, ⟨14, _⟩ => ⟨S256x64, .bf16⟩
  | .local _ .vmem, ⟨15, _⟩ => ⟨S1x64, .f32⟩
  | .local _ .vmem, ⟨16, _⟩ => ⟨S64x64, .bf16⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .bf16⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S40000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  bcast_S_S500000 : S_.BroadcastsInDim S500000 (![] : Fin 0 → Fin S500000.rank)
  bcast_S500000_S500000x1_0 : S500000.BroadcastsInDim S500000x1 (![0] : Fin 1 → Fin S500000x1.rank)
  bitsLt_bf16_f32 : FTy.bits .bf16 < FTy.bits .f32
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x64_S5000x64_S5000x256_d1 : Shape.Concatenates [S5000x64, S5000x64, S5000x64, S5000x64] S5000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S200000x64 : S_.BroadcastsInDim S200000x64 (![] : Fin 0 → Fin S200000x64.rank)
  gather_S200000x64_S500000x1_S500000x64_1_0_n_n_0_1_164_wf : GatherDims.WF S200000x64 S500000x1 S500000x64 [1] [0] [] [0] [] 1 ![1, 64]
  gather_S40000x64_S500000x1_S500000x64_1_0_n_n_0_1_164_wf : GatherDims.WF S40000x64 S500000x1 S500000x64 [1] [0] [] [0] [] 1 ![1, 64]
  dot_S5000x256_S256x64_S5000x64_1_0_0_1_n_n_wf : DotDims.WF S5000x256 S256x64 S5000x64 [1] [0] [0] [1] [] []
  dot_S5000x64_S64x64_S5000x64_1_0_0_1_n_n_wf : DotDims.WF S5000x64 S64x64 S5000x64 [1] [0] [0] [1] [] []
  scatter_S200000x64_S500000x1_S500000x64_1_0_0_1_wf : ScatterDims.WF S200000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S500000x64.size a
  hwx0_0 : ∀ i : grid0.Coords, EltTy.bits .f32 = 32 ∨ (Rect.block (s := S500000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S500000x64.size a
  hwx0_1 : ∀ i : grid0.Coords, EltTy.bits .f32 = 32 ∨ (Rect.block (s := S500000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S500000x64.size a
  hwx0_2 : ∀ i : grid0.Coords, EltTy.bits .f32 = 32 ∨ (Rect.block (s := S500000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S500000x64.size a
  hwx0_3 : ∀ i : grid0.Coords, EltTy.bits .f32 = 32 ∨ (Rect.block (s := S500000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S500000x64.size a
  hwx0_4 : ∀ i : grid0.Coords, EltTy.bits .f32 = 32 ∨ (Rect.block (s := S500000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S256x64.size a
  hwx0_9 : ∀ i : grid0.Coords, EltTy.bits .bf16 = 32 ∨ (Rect.block (s := S256x64) S256x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x64.size a ≤ S500000x64.size a
  hwx0_13 : ∀ i : grid0.Coords, EltTy.bits .f32 = 32 ∨ (Rect.block (s := S500000x64) S5000x64.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S200000x64.size a
  hwx1_4 : ∀ i : grid1.Coords, EltTy.bits .f32 = 32 ∨ (Rect.block (s := S200000x64) S5000x64.size (cc1_transform_4 i) (hinb1_4 i)).WholeWords (EltTy.packing .f32)

variable [Facts₀]

def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def gather_S40000x64_S500000x1_S500000x64_1_0_n_n_0_1_164 : GatherDims S40000x64 S500000x1 S500000x64 where
  offsetDims := [1]
  collapsedSliceDims := [0]
  operandBatchingDims := []
  startIndicesBatchingDims := []
  startIndexMap := [0]
  indexVectorDim := 1
  sliceSizes := ![1, 64]
  wf := gather_S40000x64_S500000x1_S500000x64_1_0_n_n_0_1_164_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf

abbrev win0_0 : Pipeline.Window sig grid0 :=
  Pipeline.Window.ofSpec (Memref.whole main_v12) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S5000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S256x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v49) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v50) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v52) S5000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v55) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S40000x64 : Shape := ⟨2, ![40000, 64]⟩
abbrev S200000x64 : Shape := ⟨2, ![200000, 64]⟩
abbrev S500000x64 : Shape := ⟨2, ![500000, 64]⟩
abbrev S500000x3 : Shape := ⟨2, ![500000, 3]⟩
abbrev S256x64 : Shape := ⟨2, ![256, 64]⟩
abbrev S64 : Shape := ⟨1, ![64]⟩
abbrev S64x64 : Shape := ⟨2, ![64, 64]⟩
abbrev S500000x1 : Shape := ⟨2, ![500000, 1]⟩
abbrev S500000 : Shape := ⟨1, ![500000]⟩
abbrev S_ : Shape := ⟨0, ![]⟩
abbrev S500000x256 : Shape := ⟨2, ![500000, 256]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S40000x64, .f32⟩
  | 1 => ⟨S200000x64, .f32⟩
  | 2 => ⟨S200000x64, .f32⟩
  | 3 => ⟨S500000x64, .f32⟩
  | 4 => ⟨S500000x3, .i32⟩
  | 5 => ⟨S256x64, .f32⟩
  | 6 => ⟨S64, .f32⟩
  | 7 => ⟨S64x64, .f32⟩
  | 8 => ⟨S64, .f32⟩
  | 9 => ⟨S256x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S500000x1, .i32⟩
  | 16 => ⟨S500000, .i32⟩
  | 17 => ⟨S500000x1, .i32⟩
  | 18 => ⟨S500000, .i32⟩
  | 19 => ⟨S500000x1, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x64, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x64, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x64, .f32⟩
  | 48 => ⟨S500000x256, .f32⟩
  | 49 => ⟨S500000x64, .f32⟩
  | 50 => ⟨S1x64, .f32⟩
  | 51 => ⟨S500000x64, .f32⟩
  | 52 => ⟨S500000x64, .f32⟩
  | 53 => ⟨S500000x64, .f32⟩
  | 54 => ⟨S500000x64, .f32⟩
  | 55 => ⟨S_, .f32⟩
  | 56 => ⟨S500000x64, .f32⟩
  | 57 => ⟨S500000x64, .f32⟩
  | 58 => ⟨S_, .f32⟩
  | 59 => ⟨S500000x64, .f32⟩
  | 60 => ⟨S500000x64, .f32⟩
  | 61 => ⟨S500000x64, .f32⟩
  | 62 => ⟨S500000x64, .f32⟩
  | 63 => ⟨S1x64, .f32⟩
  | 64 => ⟨S500000x64, .f32⟩
  | 65 => ⟨S500000x64, .f32⟩
  | 66 => ⟨S500000x64, .f32⟩
  | 67 => ⟨S500000x64, .f32⟩
  | 68 => ⟨S_, .f32⟩
  | 69 => ⟨S500000x64, .f32⟩
  | 70 => ⟨S500000x64, .f32⟩
  | 71 => ⟨S_, .f32⟩
  | 72 => ⟨S500000x64, .f32⟩
  | 73 => ⟨S500000x64, .f32⟩
  | 74 => ⟨S500000x64, .f32⟩
  | 75 => ⟨S500000x64, .f32⟩
  | 76 => ⟨S1x64, .f32⟩
  | 77 => ⟨S500000x64, .f32⟩
  | 78 => ⟨S500000x64, .f32⟩
  | 79 => ⟨S500000x64, .f32⟩
  | 80 => ⟨S500000x64, .f32⟩
  | 81 => ⟨S_, .f32⟩
  | 82 => ⟨S500000x64, .f32⟩
  | 83 => ⟨S500000x64, .f32⟩
  | 84 => ⟨S_, .f32⟩
  | 85 => ⟨S500000x64, .f32⟩
  | 86 => ⟨S500000x64, .f32⟩
  | 87 => ⟨S500000x64, .f32⟩
  | 88 => ⟨S500000x64, .f32⟩
  | 89 => ⟨S1x64, .f32⟩
  | 90 => ⟨S500000x64, .f32⟩
  | 91 => ⟨S500000x64, .f32⟩
  | 92 => ⟨S500000x64, .f32⟩
  | 93 => ⟨S500000x64, .f32⟩
  | 94 => ⟨S_, .f32⟩
  | 95 => ⟨S500000x64, .f32⟩
  | 96 => ⟨S500000x64, .f32⟩
  | 97 => ⟨S_, .f32⟩
  | 98 => ⟨S500000x64, .f32⟩
  | 99 => ⟨S500000x64, .f32⟩
  | 100 => ⟨S500000x64, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x64, .f32⟩
  | 110 => ⟨S500000x64, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x64, .f32⟩
  | 120 => ⟨S500000x64, .f32⟩
  | 121 => ⟨S_, .f32⟩
  | 122 => ⟨S200000x64, .f32⟩
  | 123 => ⟨S500000x1, .i32⟩
  | 124 => ⟨S200000x64, .f32⟩
  | 125 => ⟨S200000x64, .f32⟩
  | 126 => ⟨S1x64, .f32⟩
  | 127 => ⟨S200000x64, .f32⟩
  | _ => ⟨S40000x64, .f32⟩

abbrev hbmTy0_1 (i : Nat) : BufTy := match i % 128 with
  | 0 => ⟨S200000x64, .f32⟩
  | 1 => ⟨S200000x64, .f32⟩
  | _ => ⟨S40000x64, .f32⟩

abbrev hbmTy (i : Nat) : BufTy := match i / 128 with
  | 0 => hbmTy0_0 i
  | 1 => hbmTy0_1 i
  | _ => ⟨S40000x64, .f32⟩

abbrev bufTy : (tb : Table) → Fin (tcTables nBuf tb) → BufTy
  | .hbm, ⟨i, _⟩ => hbmTy i
  | _, _ => ⟨S40000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_8 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_10 : Ref sig .tc := ⟨.hbm, 94, rfl⟩
abbrev main_v67 : Ref sig .tc := ⟨.hbm, 95, rfl⟩
abbrev main_v68 : Ref sig .tc := ⟨.hbm, 96, rfl⟩
abbrev main_cst_11 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_16 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x64_S500000x64_S500000x256_d1 : Shape.Concatenates [S500000x64, S500000x64, S500000x64, S500000x64] S500000x256 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S_S200000x64 : S_.BroadcastsInDim S200000x64 (![] : Fin 0 → Fin S200000x64.rank)
  bcast_S1x64_S200000x64_0_1 : S1x64.BroadcastsInDim S200000x64 (![0, 1] : Fin 2 → Fin S200000x64.rank)
  gather_S200000x64_S500000x1_S500000x64_1_0_n_n_0_1_164_wf : GatherDims.WF S200000x64 S500000x1 S500000x64 [1] [0] [] [0] [] 1 ![1, 64]
  gather_S40000x64_S500000x1_S500000x64_1_0_n_n_0_1_164_wf : GatherDims.WF S40000x64 S500000x1 S500000x64 [1] [0] [] [0] [] 1 ![1, 64]
  dot_S500000x256_S256x64_S500000x64_1_0_0_1_n_n_wf : DotDims.WF S500000x256 S256x64 S500000x64 [1] [0] [0] [1] [] []
  dot_S500000x64_S64x64_S500000x64_1_0_0_1_n_n_wf : DotDims.WF S500000x64 S64x64 S500000x64 [1] [0] [0] [1] [] []
  scatter_S200000x64_S500000x1_S500000x64_1_0_0_1_wf : ScatterDims.WF S200000x64 S500000x1 S500000x64 [1] [0] [0] 1
  dot_S200000x64_S64x64_S200000x64_1_0_0_1_n_n_wf : DotDims.WF S200000x64 S64x64 S200000x64 [1] [0] [0] [1] [] []

variable [Facts₀]

def gather_S200000x64_S500000x1_S500000x64_1_0_n_n_0_1_164 : GatherDims S200000x64 S500000x1 S500000x64 where
  offsetDims := [1]
  collapsedSliceDims := [0]
  operandBatchingDims := []
  startIndicesBatchingDims := []
  startIndexMap := [0]
  indexVectorDim := 1
  sliceSizes := ![1, 64]
  wf := gather_S200000x64_S500000x1_S500000x64_1_0_n_n_0_1_164_wf
def gather_S40000x64_S500000x1_S500000x64_1_0_n_n_0_1_164 : GatherDims S40000x64 S500000x1 S500000x64 where
  offsetDims := [1]
  collapsedSliceDims := [0]
  operandBatchingDims := []
  startIndicesBatchingDims := []
  startIndexMap := [0]
  indexVectorDim := 1
  sliceSizes := ![1, 64]
  wf := gather_S40000x64_S500000x1_S500000x64_1_0_n_n_0_1_164_wf
def dot_S500000x256_S256x64_S500000x64_1_0_0_1_n_n : DotDims S500000x256 S256x64 S500000x64 where
  lhsContracting := [1]
  rhsContracting := [0]
  lhsNonContracting := [0]
  rhsNonContracting := [1]
  lhsBatch := []
  rhsBatch := []
  wf := dot_S500000x256_S256x64_S500000x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def scatter_S200000x64_S500000x1_S500000x64_1_0_0_1 : ScatterDims S200000x64 S500000x1 S500000x64 where
  updateWindowDims := [1]
  insertedWindowDims := [0]
  scatterDimsToOperandDims := [0]
  indexVectorDim := 1
  wf := scatter_S200000x64_S500000x1_S500000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.HostKernel.lean ====
/-
  What the host operations around the two kernel regions hand to them, at the extended reals.

  Before the first region the host slices the three index columns out of the bond graph, wraps negative indices, gathers
  the bond and atom feature rows and the two bond-weight rows (multiplied together), narrows the weight matrices (the
  identity on the extended reals) and views each bias as one row. These are the same operations, on the same arguments,
  as the reference's first stages, so each array the region is entered with is the reference's stage of the launch
  arguments. Between the regions the host scatter-adds the first region's result into the zero array by the bond-i column.
-/
import proofs.«179162_j17437567222208_1_alg».proof.Proof.Gen.KernelIdeal.Frame
import proofs.«179162_j17437567222208_1_alg».proof.Proof.Gen.ReferenceIdeal.Read
import Idealize.ShloMosaic.Lib.StableHlo.Run
import Idealize.ShloMosaic.Lib.ValueLayout

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## The first region's entry -/

/-- The bond-i rows of the bond features. -/
theorem entry_v12 (c : Dev nD) : V1 m ρ c main_v12 = Cert.ReferenceIdeal.Read.val_main_v12 (F := Ideal) (m ((c : Thread nD τ).loc main_arg1)) (m ((c : Thread nD τ).loc main_arg4)) := by
  show StableHlo.after hostOps0 (W0 m ρ c) (Proc.devRef .tc main_v12) = _
  after_results_simp
  rfl

/-- The bond-j rows of the bond features. -/
theorem entry_v19 (c : Dev nD) : V1 m ρ c main_v19 = Cert.ReferenceIdeal.Read.val_main_v19 (F := Ideal) (m ((c : Thread nD τ).loc main_arg1)) (m ((c : Thread nD τ).loc main_arg4)) := by
  show StableHlo.after hostOps0 (W0 m ρ c) (Proc.devRef .tc main_v19) = _
  after_results_simp
  rfl

/-- The angle features are an argument: no host operation writes them. -/
theorem entry_arg3 (c : Dev nD) : V1 m ρ c main_arg3 = (m ((c : Thread nD τ).loc main_arg3)) := by
  show StableHlo.after hostOps0 (W0 m ρ c) (Proc.devRef .tc main_arg3) = _
  after_results_simp

/-- The centre-atom rows of the atom features. -/
theorem entry_v26 (c : Dev nD) : V1 m ρ c main_v26 = Cert.ReferenceIdeal.Read.val_main_v26 (F := Ideal) (m ((c : Thread nD τ).loc main_arg0)) (m ((c : Thread nD τ).loc main_arg4)) := by
  show StableHlo.after hostOps0 (W0 m ρ c) (Proc.devRef .tc main_v26) = _
  after_results_simp
  rfl

/-- The product of the bond-i and bond-j rows of the bond weights. -/
theorem entry_v41 (c : Dev nD) : V1 m ρ c main_v41
    = mulf (F := Ideal) (s := Cert.ReferenceIdeal.S500000x64) (φ := .f32) (Cert.ReferenceIdeal.Read.val_main_v78 (F := Ideal) (m ((c : Thread nD τ).loc main_arg2)) (m ((c : Thread nD τ).loc main_arg4))) (Cert.ReferenceIdeal.Read.val_main_v86 (F := Ideal) (m ((c : Thread nD τ).loc main_arg2)) (m ((c : Thread nD τ).loc main_arg4))) := by
  show StableHlo.after hostOps0 (W0 m ρ c) (Proc.devRef .tc main_v41) = _
  after_results_simp
  rfl

/-- A weight matrix narrowed to the shorter float format is itself, on the extended reals. -/
theorem entry_v42 (c : Dev nD) : V1 m ρ c main_v42 = (m ((c : Thread nD τ).loc main_arg5)) := by
  show StableHlo.after hostOps0 (W0 m ρ c) (Proc.devRef .tc main_v42) = _
  after_results_simp
  rfl
theorem entry_v43 (c : Dev nD) : V1 m ρ c main_v43 = (m ((c : Thread nD τ).loc main_arg7)) := by
  show StableHlo.after hostOps0 (W0 m ρ c) (Proc.devRef .tc main_v43) = _
  after_results_simp
  rfl
theorem entry_v44 (c : Dev nD) : V1 m ρ c main_v44 = (m ((c : Thread nD τ).loc main_arg9)) := by
  show StableHlo.after hostOps0 (W0 m ρ c) (Proc.devRef .tc main_v44) = _
  after_results_simp
  rfl
theorem entry_v45 (c : Dev nD) : V1 m ρ c main_v45 = (m ((c : Thread nD τ).loc main_arg11)) := by
  show StableHlo.after hostOps0 (W0 m ρ c) (Proc.devRef .tc main_v45) = _
  after_results_simp
  rfl

/-- A bias viewed as one row of 64 reads, at column j, the bias at j. -/
theorem entry_v47 (c : Dev nD) : (fun j : Fin 64 => V1 m ρ c main_v47 (ix2 0 j)) = fun j => (m ((c : Thread nD τ).loc main_arg6)) (ix1 j) := by
  funext j
  show StableHlo.after hostOps0 (W0 m ρ c) (Proc.devRef .tc main_v47) (ix2 0 j) = _
  after_results_simp
  exact shapeCast_a_1a_apply _ _ 0 j
theorem entry_v48 (c : Dev nD) : (fun j : Fin 64 => V1 m ρ c main_v48 (ix2 0 j)) = fun j => (m ((c : Thread nD τ).loc main_arg8)) (ix1 j) := by
  funext j
  show StableHlo.after hostOps0 (W0 m ρ c) (Proc.devRef .tc main_v48) (ix2 0 j) = _
  after_results_simp
  exact shapeCast_a_1a_apply _ _ 0 j
theorem entry_v49 (c : Dev nD) : (fun j : Fin 64 => V1 m ρ c main_v49 (ix2 0 j)) = fun j => (m ((c : Thread nD τ).loc main_arg10)) (ix1 j) := by
  funext j
  show StableHlo.after hostOps0 (W0 m ρ c) (Proc.devRef .tc main_v49) (ix2 0 j) = _
  after_results_simp
  exact shapeCast_a_1a_apply _ _ 0 j
theorem entry_v50 (c : Dev nD) : (fun j : Fin 64 => V1 m ρ c main_v50 (ix2 0 j)) = fun j => (m ((c : Thread nD τ).loc main_arg12)) (ix1 j) := by
  funext j
  show StableHlo.after hostOps0 (W0 m ρ c) (Proc.devRef .tc main_v50) (ix2 0 j) = _
  after_results_simp
  exact shapeCast_a_1a_apply _ _ 0 j

/-! ## The second region's entry -/

/-- The bond-i index column, as the host between the regions finds it: no window of the first region is over it. -/
theorem between_v3 (c : Dev nD) : W2 m ρ c (Proc.devRef .tc main_v3) = Cert.ReferenceIdeal.Read.val_main_v3 (F := Ideal) (m ((c : Thread nD τ).loc main_arg4)) := by
  rw [W2_of_ne m ρ c main_v3 (by decide)]
  show StableHlo.after hostOps0 (W0 m ρ c) (Proc.devRef .tc main_v3) = _
  after_results_simp
  rfl

/-- The aggregated messages: the first region's result scatter-added into the zero array by the bond-i column. -/
theorem entry_v55 (c : Dev nD) : V3 m ρ c main_v55
    = Host.scatterAdd (F := Ideal) (φ := .f32) Cert.ReferenceIdeal.scatter_S200000x64_S500000x1_S500000x64_1_0_0_1 (Cert.ReferenceIdeal.Read.val_main_v88 (F := Ideal))
        (Cert.ReferenceIdeal.Read.val_main_v89 (F := Ideal) (m ((c : Thread nD τ).loc main_arg4))) ((dat0 (F := Ideal) (V1 m ρ) c).arrAt 13 cfg0.N) := by
  show StableHlo.after hostOps1 (W2 m ρ c) (Proc.devRef .tc main_v55) = _
  after_results
  rw [between_v3 m ρ c, show W2 m ρ c (Proc.devRef .tc main_v52) = (dat0 (F := Ideal) (V1 m ρ) c).arrAt 13 cfg0.N from W2_arr m ρ c 13]
  rfl

/-- The bond features are an argument: nothing before the second region writes them. -/
theorem entry_arg1 (c : Dev nD) : V3 m ρ c main_arg1 = (m ((c : Thread nD τ).loc main_arg1)) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results_simp

/-- The output layer's weight matrix, narrowed: itself on the extended reals. -/
theorem entry_v46 (c : Dev nD) : V3 m ρ c main_v46 = (m ((c : Thread nD τ).loc main_arg13)) := by
  show StableHlo.after hostOps1 (W2 m ρ c) (Proc.devRef .tc main_v46) = _
  after_results
  rw [W2_of_ne m ρ c main_v46 (by decide)]
  show StableHlo.after hostOps0 (W0 m ρ c) (Proc.devRef .tc main_v46) = _
  after_results_simp
  rfl

/-- The output layer's bias viewed as one row. -/
theorem entry_v51 (c : Dev nD) : (fun j : Fin 64 => V3 m ρ c main_v51 (ix2 0 j)) = fun j => (m ((c : Thread nD τ).loc main_arg14)) (ix1 j) := by
  funext j
  show StableHlo.after hostOps1 (W2 m ρ c) (Proc.devRef .tc main_v51) (ix2 0 j) = _
  after_results
  rw [W2_of_ne m ρ c main_v51 (by decide)]
  show StableHlo.after hostOps0 (W0 m ρ c) (Proc.devRef .tc main_v51) (ix2 0 j) = _
  after_results_simp
  exact shapeCast_a_1a_apply _ _ 0 j

end Cert.KernelIdeal.HostSide

end
-- ==== Proof.Spec.lean ====
/-
  What the two programs compute, as functions on the extended reals.

  One message row. For a row of 256 inputs (the features of bond i, bond j, the angle and the centre atom laid end to
  end), a two-layer perceptron with the activation x ↦ x·σ(x) gives the "core", a second one ending in σ gives the
  "gate"; the message is core · gate · w, with w the product of the two bonds' weights. The messages are summed into
  their target bonds by the host's scatter-add (kept as it is printed on both sides), and each aggregated row goes
  through one linear layer, a bias and the residual. Sums are finite sums on the extended reals: no order and no
  rounding is left in them.
-/
import Idealize.ShloMosaic.PureOps.Ideal.Laws
import Idealize.ShloMosaic.Lib.ValueIdx
import Idealize.ShloMosaic.Lib.IdealHost

noncomputable section

namespace Cert.BondConv

open Idealize.ShloMosaic Idealize.ShloMosaic.ValueIdx

/-- The activation x · σ(x), σ the logistic function (σ(-∞) = 0, σ(+∞) = 1). -/
def silu (x : EReal) : EReal := x * Ideal.logistic x

/-- Four arrays of 64 columns laid side by side: row `r` of the 256-column array, read at column `k`. -/
def joined {N : Nat} (a b c d : (⟨2, ![N, 64]⟩ : Shape).Idx → EReal) (r : Fin N) (k : Fin 256) : EReal :=
  if h0 : k.val < 64 then a (ix2 r ⟨k.val, h0⟩)
  else if h1 : k.val < 128 then b (ix2 r ⟨k.val - 64, by omega⟩)
  else if h2 : k.val < 192 then c (ix2 r ⟨k.val - 128, by omega⟩)
  else d (ix2 r ⟨k.val - 192, by have := k.isLt; omega⟩)

/-- Entry `j` of the hidden layer of one row: the activation of Σ_k row k · W₁(k, j) + b₁ j. -/
def hidden (row : Fin 256 → EReal) (W1 : (⟨2, ![256, 64]⟩ : Shape).Idx → EReal) (b1 : Fin 64 → EReal) (j : Fin 64) : EReal :=
  silu ((∑ k : Fin 256, row k * W1 (ix2 k j)) + b1 j)

/-- Entry `c` of the second layer before its activation: Σ_j hidden j · W₂(j, c) + b₂ c. -/
def second (row : Fin 256 → EReal) (W1 : (⟨2, ![256, 64]⟩ : Shape).Idx → EReal) (b1 : Fin 64 → EReal)
    (W2 : (⟨2, ![64, 64]⟩ : Shape).Idx → EReal) (b2 : Fin 64 → EReal) (c : Fin 64) : EReal :=
  (∑ j : Fin 64, hidden row W1 b1 j * W2 (ix2 j c)) + b2 c

/-- Entry `c` of one row's message: core · gate · w. -/
def message (row : Fin 256 → EReal)
    (Wc1 : (⟨2, ![256, 64]⟩ : Shape).Idx → EReal) (bc1 : Fin 64 → EReal) (Wc2 : (⟨2, ![64, 64]⟩ : Shape).Idx → EReal) (bc2 : Fin 64 → EReal)
    (Wg1 : (⟨2, ![256, 64]⟩ : Shape).Idx → EReal) (bg1 : Fin 64 → EReal) (Wg2 : (⟨2, ![64, 64]⟩ : Shape).Idx → EReal) (bg2 : Fin 64 → EReal)
    (w : EReal) (c : Fin 64) : EReal :=
  silu (second row Wc1 bc1 Wc2 bc2 c) * Ideal.logistic (second row Wg1 bg1 Wg2 bg2 c) * w

/-- All 500000 messages: row `r` from the four gathered feature arrays at row `r` and the weight product at (r, c). -/
def messages (fi fj ang fc : (⟨2, ![500000, 64]⟩ : Shape).Idx → EReal)
    (Wc1 : (⟨2, ![256, 64]⟩ : Shape).Idx → EReal) (bc1 : Fin 64 → EReal) (Wc2 : (⟨2, ![64, 64]⟩ : Shape).Idx → EReal) (bc2 : Fin 64 → EReal)
    (Wg1 : (⟨2, ![256, 64]⟩ : Shape).Idx → EReal) (bg1 : Fin 64 → EReal) (Wg2 : (⟨2, ![64, 64]⟩ : Shape).Idx → EReal) (bg2 : Fin 64 → EReal)
    (w : (⟨2, ![500000, 64]⟩ : Shape).Idx → EReal) : (⟨2, ![500000, 64]⟩ : Shape).Idx → EReal :=
  fun i => message (joined fi fj ang fc (i 0)) Wc1 bc1 Wc2 bc2 Wg1 bg1 Wg2 bg2 (w i) (i 1)

/-- The output layer on the aggregated messages: Σ_k agg(r, k) · Wₒ(k, c) + bₒ c + bond(r, c). -/
def projected (agg : (⟨2, ![200000, 64]⟩ : Shape).Idx → EReal) (Wo : (⟨2, ![64, 64]⟩ : Shape).Idx → EReal) (bo : Fin 64 → EReal)
    (bond : (⟨2, ![200000, 64]⟩ : Shape).Idx → EReal) : (⟨2, ![200000, 64]⟩ : Shape).Idx → EReal :=
  fun i => (∑ k : Fin 64, agg (ix2 (i 0) k) * Wo (ix2 k (i 1))) + bo (i 1) + bond i

theorem messages_apply (fi fj ang fc : (⟨2, ![500000, 64]⟩ : Shape).Idx → EReal)
    (Wc1 : (⟨2, ![256, 64]⟩ : Shape).Idx → EReal) (bc1 : Fin 64 → EReal) (Wc2 : (⟨2, ![64, 64]⟩ : Shape).Idx → EReal) (bc2 : Fin 64 → EReal)
    (Wg1 : (⟨2, ![256, 64]⟩ : Shape).Idx → EReal) (bg1 : Fin 64 → EReal) (Wg2 : (⟨2, ![64, 64]⟩ : Shape).Idx → EReal) (bg2 : Fin 64 → EReal)
    (w : (⟨2, ![500000, 64]⟩ : Shape).Idx → EReal) (r : Fin 500000) (c : Fin 64) :
    messages fi fj ang fc Wc1 bc1 Wc2 bc2 Wg1 bg1 Wg2 bg2 w (ix2 r c)
      = message (joined fi fj ang fc r) Wc1 bc1 Wc2 bc2 Wg1 bg1 Wg2 bg2 (w (ix2 r c)) c := rfl

theorem projected_apply (agg : (⟨2, ![200000, 64]⟩ : Shape).Idx → EReal) (Wo : (⟨2, ![64, 64]⟩ : Shape).Idx → EReal) (bo : Fin 64 → EReal)
    (bond : (⟨2, ![200000, 64]⟩ : Shape).Idx → EReal) (r : Fin 200000) (c : Fin 64) :
    projected agg Wo bo bond (ix2 r c) = (∑ k : Fin 64, agg (ix2 r k) * Wo (ix2 k c)) + bo c + bond (ix2 r c) := rfl

end Cert.BondConv

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.LibJoin.lean ====
/-
  Four arrays of 64 columns joined along the column axis, read at an entry.

  The join of N×64 arrays a, b, c, d along axis 1 is the N×256 array whose row r is a's row r, then b's, c's and d's, end
  to end: column k falls in piece k / 64 at column k % 64 (`Cert.BondConv.joined`). Generic in the number of rows.
-/
import Idealize.ShloMosaic.Lib.Pipeline.Value
import Idealize.ShloMosaic.Lib.ValueIdx
import proofs.«179162_j17437567222208_1_alg».proof.Proof.Spec

namespace Cert.BondConv

open Idealize.ShloMosaic Idealize.ShloMosaic.ValueIdx

/-- The join along the columns of four N×64 arrays, at (r, k), is `joined a b c d r k`. -/
theorem concat4_apply (N : Nat) (a b c d : (⟨2, ![N, 64]⟩ : Shape).Idx → EReal)
    (h : Shape.Concatenates (([⟨⟨2, ![N, 64]⟩, a⟩, ⟨⟨2, ![N, 64]⟩, b⟩, ⟨⟨2, ![N, 64]⟩, c⟩, ⟨⟨2, ![N, 64]⟩, d⟩] :
        List ((s : Shape) × (s.Idx → EReal))).map (·.1)) ⟨2, ![N, 256]⟩ 1)
    (r : Fin N) (k : Fin 256) :
    concatenate (⟨2, ![N, 256]⟩ : Shape) 1 [⟨⟨2, ![N, 64]⟩, a⟩, ⟨⟨2, ![N, 64]⟩, b⟩, ⟨⟨2, ![N, 64]⟩, c⟩, ⟨⟨2, ![N, 64]⟩, d⟩] h (ix2 r k)
      = joined a b c d r k := by
  unfold joined
  -- off the column axis the piece's index and the joined array's index have the same row
  have hrow : ∀ (c : Fin 64) (hr : (⟨2, ![N, 64]⟩ : Shape).rank = (⟨2, ![N, 256]⟩ : Shape).rank) (b : Fin (⟨2, ![N, 64]⟩ : Shape).rank),
      b.cast hr ≠ (1 : Fin 2) → ((ix2 r c : (⟨2, ![N, 64]⟩ : Shape).Idx) b).val = ((ix2 r k : (⟨2, ![N, 256]⟩ : Shape).Idx) (b.cast hr)).val := by
    intro c hr b hb
    match b with
    | ⟨0, _⟩ => rfl
    | ⟨1, _⟩ => exact absurd (Fin.ext rfl) hb
  split
  · -- columns 0 … 63: the first piece, nothing before it
    next h0 =>
    refine concatenate_apply_piece (1 : Fin 2) _ h (ix2 r k) 0 (by simp) ⟨2, ![N, 64]⟩ a rfl rfl 0 (by simp)
      (ix2 r ⟨k.val, h0⟩) (hrow _ rfl) ?_
    show 0 + k.val = k.val
    omega
  · next h0 =>
    split
    · -- columns 64 … 127: the second piece, 64 columns before it
      next h1 =>
      refine concatenate_apply_piece (1 : Fin 2) _ h (ix2 r k) 1 (by simp) ⟨2, ![N, 64]⟩ b rfl rfl 64 (by simp)
        (ix2 r ⟨k.val - 64, by omega⟩) (hrow _ rfl) ?_
      show 64 + (k.val - 64) = k.val
      omega
    · next h1 =>
      split
      · -- columns 128 … 191: the third piece, 128 columns before it
        next h2 =>
        refine concatenate_apply_piece (1 : Fin 2) _ h (ix2 r k) 2 (by simp) ⟨2, ![N, 64]⟩ c rfl rfl 128 (by simp)
          (ix2 r ⟨k.val - 128, by omega⟩) (hrow _ rfl) ?_
        show 128 + (k.val - 128) = k.val
        omega
      · -- columns 192 … 255: the fourth piece, 192 columns before it
        next h2 =>
        have hk := k.isLt
        refine concatenate_apply_piece (1 : Fin 2) _ h (ix2 r k) 3 (by simp) ⟨2, ![N, 64]⟩ d rfl rfl 192 (by simp)
          (ix2 r ⟨k.val - 192, by omega⟩) (hrow _ rfl) ?_
        show 192 + (k.val - 192) = k.val
        omega

end Cert.BondConv
-- ==== Proof.Payload0.lean ====
/-
  The gated two-layer perceptron of one row block, read at an entry.

  The body of the first kernel joins four 5000×64 blocks into a 5000×256 block, runs it through two perceptrons (the
  "core" ending in x ↦ x·σ(x), the "gate" ending in σ) and multiplies the two results and a fifth block entry by
  entry. On the extended reals a change of float format is the identity and every matrix product is a finite sum, so
  the stored value at (p, q) is the specification's message of the joined row p, at column q.
-/
import proofs.«179162_j17437567222208_1_alg».proof.Proof.Gen.KernelIdeal.Skeleton
import proofs.«179162_j17437567222208_1_alg».proof.Proof.Spec
import proofs.«179162_j17437567222208_1_alg».proof.Proof.LibPlainDot
import proofs.«179162_j17437567222208_1_alg».proof.Proof.LibJoin
import Idealize.ShloMosaic.Lib.ValueLayout
import Idealize.ShloMosaic.Lib.Pipeline.Value

noncomputable section

namespace Cert.KernelIdeal.Region0

open Cert.KernelIdeal Cert.KernelIdeal.Gen Idealize.ShloMosaic Idealize.ShloMosaic.ValueIdx

/-- The printed dimension record of the 5000×256 by 256×64 product is the plain one. -/
theorem dot256_eq : dot_S5000x256_S256x64_S5000x64_1_0_0_1_n_n = DotDims.plain 5000 256 64 := rfl

/-- The printed dimension record of the 5000×64 by 64×64 product is the plain one. -/
theorem dot64_eq : dot_S5000x64_S64x64_S5000x64_1_0_0_1_n_n = DotDims.plain 5000 64 64 := rfl

/-- The joined block: row p of the four blocks laid end to end, at column k. -/
theorem pay2_apply (x0 x1 x2 x3 : Vec Ideal S5000x64 .f32) (p : Fin 5000) (k : Fin 256) :
    k0_pay2 (F := Ideal) x0 x1 x2 x3 (ix2 p k) = Cert.BondConv.joined x0 x1 x2 x3 p k := by
  unfold k0_pay2
  rw [truncf_apply]
  rw [shapeCast_self x0, shapeCast_self x1, shapeCast_self x3]
  exact Cert.BondConv.concat4_apply 5000 x0 x1 x2 x3 _ p k

/-- The logistic function entry by entry. -/
theorem logistic_apply {s : Shape} {φ : FTy} (v : FVec Ideal s φ) (i : s.Idx) : logistic v i = Ideal.logistic (v i) := rfl

/-- A linear layer on 256 inputs with a row bias, at (p, q): Σ_k a(p, k) · W(k, q) + b q. -/
theorem dense256_apply (a : FVec Ideal S5000x256 .bf16) (w : Vec Ideal S256x64 .bf16) (b : Vec Ideal S1x64 .f32)
    (p : Fin 5000) (q : Fin 64) :
    addf (matmul (φ₂ := .bf16) dot_S5000x256_S256x64_S5000x64_1_0_0_1_n_n none a (shapeCast S256x64 w shapeCasts_S256x64_S256x64)
        (constant (F := Ideal) S5000x64 .f32 0x00000000#32))
      (broadcastTo S5000x64 (shapeCast S1x64 b shapeCasts_S1x64_S1x64) broadcasts_S1x64_S5000x64) (ix2 p q)
      = (∑ k : Fin 256, a (ix2 p k) * w (ix2 k q)) + b (ix2 0 q) := by
  rw [addf_apply, shapeCast_self w, shapeCast_self b, broadcastTo_1b_ab_apply, dot256_eq, matmul,
    PlainDot.matmul_zero_apply]

/-- A linear layer on 64 inputs with a row bias, at (p, q): Σ_j a(p, j) · W(j, q) + b q. -/
theorem dense64_apply (a : FVec Ideal S5000x64 .bf16) (w : Vec Ideal S64x64 .bf16) (b : Vec Ideal S1x64 .f32)
    (p : Fin 5000) (q : Fin 64) :
    addf (matmul (φ₂ := .bf16) dot_S5000x64_S64x64_S5000x64_1_0_0_1_n_n none a (shapeCast S64x64 w shapeCasts_S64x64_S64x64)
        (constant (F := Ideal) S5000x64 .f32 0x00000000#32))
      (broadcastTo S5000x64 (shapeCast S1x64 b shapeCasts_S1x64_S1x64) broadcasts_S1x64_S5000x64) (ix2 p q)
      = (∑ j : Fin 64, a (ix2 p j) * w (ix2 j q)) + b (ix2 0 q) := by
  rw [addf_apply, shapeCast_self w, shapeCast_self b, broadcastTo_1b_ab_apply, dot64_eq, matmul,
    PlainDot.matmul_zero_apply]

/-- The gate's first layer before its activation: Σ_k row k · W(k, q) + b q on the joined row p. -/
theorem pay4_apply (x0 x1 x2 x3 : Vec Ideal S5000x64 .f32) (w : Vec Ideal S256x64 .bf16) (b : Vec Ideal S1x64 .f32)
    (p : Fin 5000) (q : Fin 64) :
    k0_pay4 (F := Ideal) x0 x1 x2 x3 w b (ix2 p q)
      = (∑ k : Fin 256, Cert.BondConv.joined x0 x1 x2 x3 p k * w (ix2 k q)) + b (ix2 0 q) := by
  unfold k0_pay4
  rw [dense256_apply]
  simp only [pay2_apply]

/-- The gate's first layer after the logistic function. -/
theorem pay5_apply (x0 x1 x2 x3 : Vec Ideal S5000x64 .f32) (w : Vec Ideal S256x64 .bf16) (b : Vec Ideal S1x64 .f32)
    (p : Fin 5000) (q : Fin 64) :
    k0_pay5 (F := Ideal) x0 x1 x2 x3 w b (ix2 p q) = Ideal.logistic (k0_pay4 (F := Ideal) x0 x1 x2 x3 w b (ix2 p q)) := rfl

/-- The core: the activation of the second layer of the first perceptron on the joined row p, at column q. -/
theorem pay3_apply (x0 x1 x2 x3 : Vec Ideal S5000x64 .f32) (w5 : Vec Ideal S256x64 .bf16) (b6 : Vec Ideal S1x64 .f32)
    (w7 : Vec Ideal S64x64 .bf16) (b8 : Vec Ideal S1x64 .f32) (p : Fin 5000) (q : Fin 64) :
    k0_pay3 (F := Ideal) x0 x1 x2 x3 w5 b6 w7 b8 (ix2 p q)
      = Cert.BondConv.silu (Cert.BondConv.second (Cert.BondConv.joined x0 x1 x2 x3 p) w5 (fun j => b6 (ix2 0 j))
          w7 (fun j => b8 (ix2 0 j)) q) := by
  unfold k0_pay3
  rw [mulf_apply, logistic_apply, dense64_apply]
  simp only [truncf_apply, mulf_apply, logistic_apply, dense256_apply, pay2_apply]
  rfl

/-- The stored value at (p, q): core · gate · weight, the specification's message of the joined row p at column q. -/
theorem pay_apply (x0 x1 x2 x3 x4 : Vec Ideal S5000x64 .f32) (w5 : Vec Ideal S256x64 .bf16) (b6 : Vec Ideal S1x64 .f32)
    (w7 : Vec Ideal S64x64 .bf16) (b8 : Vec Ideal S1x64 .f32) (w9 : Vec Ideal S256x64 .bf16) (b10 : Vec Ideal S1x64 .f32)
    (w11 : Vec Ideal S64x64 .bf16) (b12 : Vec Ideal S1x64 .f32) (p : Fin 5000) (q : Fin 64) :
    k0_pay1 (F := Ideal) (k0_pay3 x0 x1 x2 x3 w5 b6 w7 b8) (k0_pay4 x0 x1 x2 x3 w9 b10) (k0_pay5 x0 x1 x2 x3 w9 b10)
        w11 b12 x4 (ix2 p q)
      = Cert.BondConv.message (Cert.BondConv.joined x0 x1 x2 x3 p) w5 (fun j => b6 (ix2 0 j)) w7 (fun j => b8 (ix2 0 j))
          w9 (fun j => b10 (ix2 0 j)) w11 (fun j => b12 (ix2 0 j)) (x4 (ix2 p q)) q := by
  unfold k0_pay1
  rw [mulf_apply, mulf_apply, logistic_apply, shapeCast_self x4, dense64_apply, pay3_apply]
  simp only [truncf_apply, mulf_apply, pay5_apply, pay4_apply]
  rfl

end Cert.KernelIdeal.Region0

end
-- ==== Proof.Region0.lean ====
/-
  The first kernel's result array after its 100 grid points: the 500000 messages.

  Grid point t reads rows 5000·t … 5000·t + 4999 of the four feature arrays and of the weight product, and the eight
  parameter arrays whole; it writes rows 5000·t … 5000·t + 4999 of the result. Each written row is the specification's
  message of the joined row of the four arrays, so after the last point the result array is `messages` of the arrays
  the region found.
-/
import proofs.«179162_j17437567222208_1_alg».proof.Proof.Payload0
import proofs.«179162_j17437567222208_1_alg».proof.Proof.Gen.KernelIdeal.Frame
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the five row-block inputs and the output sit at block (t, 0), the eight
    parameter arrays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_13.index t (0 : Fin 2) = t.val ∧ win0_13.index t (1 : Fin 2) = 0) :=
  (by decide +kernel : ∀ t : Fin grid0.N, _)

/-- The parameter windows never move. -/
theorem idx_params : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- There are 100 grid points. -/
theorem t_lt (t : Fin cfg0.N) : t.val < 100 := t.isLt

/-- Row p of point t's block is row 5000·t + p of the array. -/
theorem row_lt (t : Fin cfg0.N) (p : Fin 5000) : t.val * 5000 + p.val < 500000 := by
  have := t_lt t; have := p.isLt; omega

/-- An element of a window's block sits in the window's array, on each axis, at block index × block size + its own
    coordinate. Given the window's two block indices at the point (`h`), the goal `A (emb y) = A i` is closed
    coordinate by coordinate: `n0`, `n1` are the block's extents, `y0`, `y1` the coordinates inside the block and
    `i0`, `i1` those of `i`. -/
local macro "block_at " win:ident n0:num n1:num y0:term:max y1:term:max i0:term:max i1:term:max h:term : tactic => `(tactic| (
  refine congrArg _ (funext fun a => Fin.ext ?_)
  obtain ⟨e0, e1⟩ := $h
  match a with
  | ⟨0, _⟩ => (show Pipeline.Window.index $win _ (0 : Fin 2) * $n0 + 1 * $y0 = $i0); omega
  | ⟨1, _⟩ => (show Pipeline.Window.index $win _ (1 : Fin 2) * $n1 + 1 * $y1 = $i1); omega))

/-- The first bond-feature array's block at point t, at (p, q), is the array at (5000·t + p, q). -/
theorem blk0_apply (c : Dev nD) (t : Fin cfg0.N) (p : Fin 5000) (q : Fin 64) :
    (iblk0 V c 0 t : Vec Ideal S5000x64 .f32) (ix2 p q)
      = (V c main_v12 : S500000x64.Idx → EReal) (ix2 ⟨t.val * 5000 + p.val, row_lt t p⟩ q) := by
  unfold iblk0
  show V c main_v12 (((cfg0.win 0).blk t).view.emb (ix2 p q)) = _
  block_at win0_0 5000 64 p.val q.val (t.val * 5000 + p.val) q.val (idx_facts t).1

/-- The second bond-feature array's block, likewise. -/
theorem blk1_apply (c : Dev nD) (t : Fin cfg0.N) (p : Fin 5000) (q : Fin 64) :
    (iblk0 V c 1 t : Vec Ideal S5000x64 .f32) (ix2 p q)
      = (V c main_v19 : S500000x64.Idx → EReal) (ix2 ⟨t.val * 5000 + p.val, row_lt t p⟩ q) := by
  unfold iblk0
  show V c main_v19 (((cfg0.win 1).blk t).view.emb (ix2 p q)) = _
  block_at win0_1 5000 64 p.val q.val (t.val * 5000 + p.val) q.val (idx_facts t).2.1

/-- The angle-feature array's block, likewise. -/
theorem blk2_apply (c : Dev nD) (t : Fin cfg0.N) (p : Fin 5000) (q : Fin 64) :
    (iblk0 V c 2 t : Vec Ideal S5000x64 .f32) (ix2 p q)
      = (V c main_arg3 : S500000x64.Idx → EReal) (ix2 ⟨t.val * 5000 + p.val, row_lt t p⟩ q) := by
  unfold iblk0
  show V c main_arg3 (((cfg0.win 2).blk t).view.emb (ix2 p q)) = _
  block_at win0_2 5000 64 p.val q.val (t.val * 5000 + p.val) q.val (idx_facts t).2.2.1

/-- The centre-atom feature array's block, likewise. -/
theorem blk3_apply (c : Dev nD) (t : Fin cfg0.N) (p : Fin 5000) (q : Fin 64) :
    (iblk0 V c 3 t : Vec Ideal S5000x64 .f32) (ix2 p q)
      = (V c main_v26 : S500000x64.Idx → EReal) (ix2 ⟨t.val * 5000 + p.val, row_lt t p⟩ q) := by
  unfold iblk0
  show V c main_v26 (((cfg0.win 3).blk t).view.emb (ix2 p q)) = _
  block_at win0_3 5000 64 p.val q.val (t.val * 5000 + p.val) q.val (idx_facts t).2.2.2.1

/-- The weight-product array's block, likewise. -/
theorem blk4_apply (c : Dev nD) (t : Fin cfg0.N) (p : Fin 5000) (q : Fin 64) :
    (iblk0 V c 4 t : Vec Ideal S5000x64 .f32) (ix2 p q)
      = (V c main_v41 : S500000x64.Idx → EReal) (ix2 ⟨t.val * 5000 + p.val, row_lt t p⟩ q) := by
  unfold iblk0
  show V c main_v41 (((cfg0.win 4).blk t).view.emb (ix2 p q)) = _
  block_at win0_4 5000 64 p.val q.val (t.val * 5000 + p.val) q.val (idx_facts t).2.2.2.2.1

/-- The core's first weight array is read whole at every point. -/
theorem blk5_eq (c : Dev nD) (t : Fin cfg0.N) :
    (iblk0 V c 5 t : Vec Ideal S256x64 .bf16) = (V c main_v42 : S256x64.Idx → EReal) := by
  funext j
  unfold iblk0
  show V c main_v42 (((cfg0.win 5).blk t).view.emb j) = V c main_v42 j
  block_at win0_5 256 64 (j 0).val (j 1).val (j 0).val (j 1).val (idx_params t).1

/-- The core's first bias row, likewise. -/
theorem blk6_eq (c : Dev nD) (t : Fin cfg0.N) :
    (iblk0 V c 6 t : Vec Ideal S1x64 .f32) = (V c main_v47 : S1x64.Idx → EReal) := by
  funext j
  unfold iblk0
  show V c main_v47 (((cfg0.win 6).blk t).view.emb j) = V c main_v47 j
  block_at win0_6 1 64 (j 0).val (j 1).val (j 0).val (j 1).val (idx_params t).2.1

/-- The core's second weight array, likewise. -/
theorem blk7_eq (c : Dev nD) (t : Fin cfg0.N) :
    (iblk0 V c 7 t : Vec Ideal S64x64 .bf16) = (V c main_v43 : S64x64.Idx → EReal) := by
  funext j
  unfold iblk0
  show V c main_v43 (((cfg0.win 7).blk t).view.emb j) = V c main_v43 j
  block_at win0_7 64 64 (j 0).val (j 1).val (j 0).val (j 1).val (idx_params t).2.2.1

/-- The core's second bias row, likewise. -/
theorem blk8_eq (c : Dev nD) (t : Fin cfg0.N) :
    (iblk0 V c 8 t : Vec Ideal S1x64 .f32) = (V c main_v48 : S1x64.Idx → EReal) := by
  funext j
  unfold iblk0
  show V c main_v48 (((cfg0.win 8).blk t).view.emb j) = V c main_v48 j
  block_at win0_8 1 64 (j 0).val (j 1).val (j 0).val (j 1).val (idx_params t).2.2.2.1

/-- The gate's first weight array, likewise. -/
theorem blk9_eq (c : Dev nD) (t : Fin cfg0.N) :
    (iblk0 V c 9 t : Vec Ideal S256x64 .bf16) = (V c main_v44 : S256x64.Idx → EReal) := by
  funext j
  unfold iblk0
  show V c main_v44 (((cfg0.win 9).blk t).view.emb j) = V c main_v44 j
  block_at win0_9 256 64 (j 0).val (j 1).val (j 0).val (j 1).val (idx_params t).2.2.2.2.1

/-- The gate's first bias row, likewise. -/
theorem blk10_eq (c : Dev nD) (t : Fin cfg0.N) :
    (iblk0 V c 10 t : Vec Ideal S1x64 .f32) = (V c main_v49 : S1x64.Idx → EReal) := by
  funext j
  unfold iblk0
  show V c main_v49 (((cfg0.win 10).blk t).view.emb j) = V c main_v49 j
  block_at win0_10 1 64 (j 0).val (j 1).val (j 0).val (j 1).val (idx_params t).2.2.2.2.2.1

/-- The gate's second weight array, likewise. -/
theorem blk11_eq (c : Dev nD) (t : Fin cfg0.N) :
    (iblk0 V c 11 t : Vec Ideal S64x64 .bf16) = (V c main_v45 : S64x64.Idx → EReal) := by
  funext j
  unfold iblk0
  show V c main_v45 (((cfg0.win 11).blk t).view.emb j) = V c main_v45 j
  block_at win0_11 64 64 (j 0).val (j 1).val (j 0).val (j 1).val (idx_params t).2.2.2.2.2.2.1

/-- The gate's second bias row, likewise. -/
theorem blk12_eq (c : Dev nD) (t : Fin cfg0.N) :
    (iblk0 V c 12 t : Vec Ideal S1x64 .f32) = (V c main_v50 : S1x64.Idx → EReal) := by
  funext j
  unfold iblk0
  show V c main_v50 (((cfg0.win 12).blk t).view.emb j) = V c main_v50 j
  block_at win0_12 1 64 (j 0).val (j 1).val (j 0).val (j 1).val (idx_params t).2.2.2.2.2.2.2

/-- The joined row p of the four blocks at point t is the joined row 5000·t + p of the four arrays. -/
theorem joined_blk (c : Dev nD) (t : Fin cfg0.N) (p : Fin 5000) :
    Cert.BondConv.joined (N := 5000) (iblk0 V c 0 t : Vec Ideal S5000x64 .f32) (iblk0 V c 1 t : Vec Ideal S5000x64 .f32)
        (iblk0 V c 2 t : Vec Ideal S5000x64 .f32) (iblk0 V c 3 t : Vec Ideal S5000x64 .f32) p
      = Cert.BondConv.joined (N := 500000) (V c main_v12 : S500000x64.Idx → EReal) (V c main_v19 : S500000x64.Idx → EReal)
          (V c main_arg3 : S500000x64.Idx → EReal) (V c main_v26 : S500000x64.Idx → EReal) ⟨t.val * 5000 + p.val, row_lt t p⟩ := by
  funext k
  unfold Cert.BondConv.joined
  split_ifs
  · exact blk0_apply V c t p _
  · exact blk1_apply V c t p _
  · exact blk2_apply V c t p _
  · exact blk3_apply V c t p _

/-- The 500000 messages of the arrays the region finds. -/
abbrev msgs (c : Dev nD) : S500000x64.Idx → EReal :=
  Cert.BondConv.messages (V c main_v12) (V c main_v19) (V c main_arg3) (V c main_v26)
    (V c main_v42) (fun j => V c main_v47 (ix2 0 j)) (V c main_v43) (fun j => V c main_v48 (ix2 0 j))
    (V c main_v44) (fun j => V c main_v49 (ix2 0 j)) (V c main_v45) (fun j => V c main_v50 (ix2 0 j)) (V c main_v41)

/-- What point t writes back is rows 5000·t … 5000·t + 4999 of the messages. -/
theorem flushed_eq (c : Dev nD) (t : Fin cfg0.N) :
    (dat0 (F := Ideal) V c).flushed 13 t = ((cfg0.win 13).blk t).view.read (Elt Ideal) (msgs V c) := by
  show (cfg0.win 13).cut (grid0.coords t) ((dat0 V c).after 13 t) = _
  rw [after0_13]
  unfold out0_13
  rw [View.canon_unit_zero hz]
  simp only [View.ld_unit_zero (S := S5000x64) hz, View.ld_unit_zero (S := S256x64) hz, View.ld_unit_zero (S := S1x64) hz,
    View.ld_unit_zero (S := S64x64) hz]
  funext j
  obtain ⟨p, q, rfl⟩ : ∃ (p : Fin 5000) (q : Fin 64), j = (ix2 p q : S5000x64.Idx) := ⟨j 0, j 1, eq_ix2 j⟩
  have hemb : ((cfg0.win 13).blk t).view.emb (ix2 p q) = (ix2 ⟨t.val * 5000 + p.val, row_lt t p⟩ q : S500000x64.Idx) := by
    refine funext fun a => Fin.ext ?_
    obtain ⟨e0, e1⟩ := (idx_facts t).2.2.2.2.2
    match a with
    | ⟨0, _⟩ => show win0_13.index t (0 : Fin 2) * 5000 + 1 * p.val = t.val * 5000 + p.val; omega
    | ⟨1, _⟩ => show win0_13.index t (1 : Fin 2) * 64 + 1 * q.val = q.val; omega
  show k0_pay1 (F := Ideal) _ _ _ _ _ _ (ix2 p q) = msgs V c (((cfg0.win 13).blk t).view.emb (ix2 p q))
  rw [hemb, pay_apply, joined_blk V c t p, blk4_apply V c t p q, blk5_eq V c t, blk6_eq V c t, blk7_eq V c t, blk8_eq V c t,
    blk9_eq V c t, blk10_eq V c t, blk11_eq V c t, blk12_eq V c t]
  exact (Cert.BondConv.messages_apply _ _ _ _ _ _ _ _ _ _ _ _ _ ⟨t.val * 5000 + p.val, row_lt t p⟩ q).symm

/-- An index of the result array is in point t's block iff each coordinate is in the block's range on its axis. -/
theorem mem_blk (t : Fin cfg0.N) (i : S500000x64.Idx) :
    i ∈ ((cfg0.win 13).blk t).view.set ↔ ∀ a : Fin 2, win0_13.index t a * S5000x64.size a ≤ (i a).val
      ∧ (i a).val < win0_13.index t a * S5000x64.size a + S5000x64.size a := by
  show i ∈ ((View.whole main_v52).slice (win0_13.rect t)).set ↔ _
  rw [View.set_slice_whole, Rect.mem_set_unit]
  exact Iff.rfl

/-- Every entry of the result array is written: row r by the point r / 5000. -/
theorem covered (i : S500000x64.Idx) :
    ∃ t : Fin cfg0.N, (cfg0.win 13).flush t = true ∧ i ∈ ((cfg0.win 13).blk t).view.set := by
  have hi0 : (i 0).val < 500000 := (i 0).isLt
  have hi1 : (i 1).val < 64 := (i 1).isLt
  obtain ⟨t, ht⟩ : ∃ t : Fin cfg0.N, t.val = (i 0).val / 5000 :=
    ⟨⟨(i 0).val / 5000, show (i 0).val / 5000 < 100 by omega⟩, rfl⟩
  refine ⟨t, flush0_13 t, ?_⟩
  rw [mem_blk]
  obtain ⟨e0, e1⟩ := (idx_facts t).2.2.2.2.2
  intro a
  match a with
  | ⟨0, _⟩ =>
    show win0_13.index t (0 : Fin 2) * 5000 ≤ (i 0).val ∧ (i 0).val < win0_13.index t (0 : Fin 2) * 5000 + 5000
    omega
  | ⟨1, _⟩ =>
    show win0_13.index t (1 : Fin 2) * 64 ≤ (i 1).val ∧ (i 1).val < win0_13.index t (1 : Fin 2) * 64 + 64
    omega

/-- After the region's 100 points the result array holds the 500000 messages of the arrays the region found. -/
theorem final (c : Dev nD) :
    (dat0 (F := Ideal) V c).arrAt 13 cfg0.N
      = Cert.BondConv.messages (V c main_v12) (V c main_v19) (V c main_arg3) (V c main_v26)
          (V c main_v42) (fun j => V c main_v47 (ix2 0 j)) (V c main_v43) (fun j => V c main_v48 (ix2 0 j))
          (V c main_v44) (fun j => V c main_v49 (ix2 0 j)) (V c main_v45) (fun j => V c main_v50 (ix2 0 j)) (V c main_v41) :=
  (dat0 V c).arrAt_eq_of_cover 13 (msgs V c) (fun t _ => flushed_eq V c t) covered

end Cert.KernelIdeal.Region0

end
-- ==== Proof.Payload1.lean ====
/-
  The output projection's stored value, read at an entry.

  The body takes a 5000×64 block x0 of aggregated messages, the 64×64 weight w, the 1×64 bias b and a 5000×64 block x1
  of bond features, and stores x0 · w (a plain matrix product accumulated into zero) plus the bias row repeated over the
  5000 rows plus x1. On the extended reals the changes of float format are the identity, so entry (p, q) of the stored
  block is Σ_k x0 (p, k) · w (k, q) + b (0, q) + x1 (p, q).
-/
import proofs.«179162_j17437567222208_1_alg».proof.Proof.Gen.KernelIdeal.Skeleton
import proofs.«179162_j17437567222208_1_alg».proof.Proof.Spec
import proofs.«179162_j17437567222208_1_alg».proof.Proof.LibPlainDot
import Idealize.ShloMosaic.Lib.Pipeline.Value
import Idealize.ShloMosaic.Lib.ValueLayout

namespace Cert.KernelIdeal.Region1

open Cert.KernelIdeal Cert.KernelIdeal.Gen Idealize.ShloMosaic Idealize.ShloMosaic.ValueIdx

/-- The printed dimension numbers of the 5000×64 by 64×64 product are the plain ones: contract the left operand's
    columns against the right operand's rows, no batch axis. -/
theorem dot_eq_plain : dot_S5000x64_S64x64_S5000x64_1_0_0_1_n_n = DotDims.plain 5000 64 64 := rfl

/-- The product of the body, at entry (p, q): Σ_k x0 (p, k) · w (k, q). The two same-shape casts and the narrowing of
    x0 change nothing on the extended reals. -/
theorem prod_apply (x0 : Vec Ideal S5000x64 .f32) (w : Vec Ideal S64x64 .bf16) (p : Fin 5000) (q : Fin 64) :
    FloatOps.matmul dot_S5000x64_S64x64_S5000x64_1_0_0_1_n_n none
        (truncf .bf16 (shapeCast S5000x64 x0 shapeCasts_S5000x64_S5000x64) bitsLt_bf16_f32 : FVec Ideal S5000x64 .bf16)
        (shapeCast S64x64 w shapeCasts_S64x64_S64x64 : FVec Ideal S64x64 .bf16)
        (constant (F := Ideal) S5000x64 .f32 0x00000000#32) (ix2 p q)
      = ∑ k : Fin 64, x0 (ix2 p k) * w (ix2 k q) := by
  rw [shapeCast_self, shapeCast_self, dot_eq_plain]
  exact PlainDot.matmul_zero_apply 5000 64 64 _ _ p q

/-- The bias row repeated over the 5000 rows, at (p, q), is the row's entry q. -/
theorem bias_apply (b : Vec Ideal S1x64 .f32) (p : Fin 5000) (q : Fin 64) :
    (broadcastTo S5000x64 (shapeCast S1x64 b shapeCasts_S1x64_S1x64 : FVec Ideal S1x64 .f32) broadcasts_S1x64_S5000x64
        : FVec Ideal S5000x64 .f32) (ix2 p q) = b (ix2 0 q) := by
  rw [shapeCast_self]
  exact broadcastTo_1b_ab_apply _ _ p q

/-- The stored value at entry (p, q): the linear layer, the bias and the residual. -/
theorem pay_apply (x0 : Vec Ideal S5000x64 .f32) (w : Vec Ideal S64x64 .bf16) (b : Vec Ideal S1x64 .f32)
    (x1 : Vec Ideal S5000x64 .f32) (p : Fin 5000) (q : Fin 64) :
    k1_pay1 (F := Ideal) x0 w b x1 (ix2 p q)
      = (∑ k : Fin 64, x0 (ix2 p k) * w (ix2 k q)) + b (ix2 0 q) + x1 (ix2 p q) := by
  unfold k1_pay1
  rw [addf_apply, addf_apply]
  exact congrArg₂ (· + ·) (congrArg₂ (· + ·) (prod_apply x0 w p q) (bias_apply b p q)) rfl

end Cert.KernelIdeal.Region1
-- ==== Proof.Region1.lean ====
/-
  The output projection's array after its 40 grid points.

  The 200000×64 output is written in 40 blocks of 5000 rows: grid point t stages rows 5000·t … 5000·t + 4999 of the
  aggregated messages and of the bond features, the whole 64×64 weight and the whole 1×64 bias, and writes back the same
  rows of the output. Row p of block t is row 5000·t + p of the arrays, so what point t writes back is block t of ONE
  function of the arrays the region finds — the linear layer, the bias and the residual (`Cert.BondConv.projected`) —,
  and the 40 blocks cover every row (row r lies in block r / 5000). Hence the array ends holding that function.
-/
import proofs.«179162_j17437567222208_1_alg».proof.Proof.Payload1
import proofs.«179162_j17437567222208_1_alg».proof.Proof.Gen.KernelIdeal.Frame
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store are at offset (0, 0). -/
theorem zero_offsets : (![0, 0] : Fin 2 → Nat) = fun _ => 0 := funext fun a => by fin_cases a <;> rfl

/-- The grid has 40 points. -/
theorem grid_points : cfg1.N = 40 := N_1

/-- The printed index maps, decided over the grid: the aggregated messages, the bond features and the output are at
    block (t, 0) at point t; the weight and the bias are at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of a 5000-row block at point t is a row of the 200000-row array. -/
theorem row_lt (t : Fin cfg1.N) (p : Fin 5000) : t.val * 5000 + p.val < 200000 := by
  have ht : t.val < 40 := Nat.lt_of_lt_of_eq t.isLt grid_points
  have hp := p.isLt
  omega

/-- Entry (p, k) of the aggregated messages' block at point t is entry (5000·t + p, k) of the array. -/
theorem emb_agg (t : Fin cfg1.N) (p : Fin 5000) (k : Fin 64) :
    (((cfg1.win 0).blk t).view.emb (ix2 p k) : S200000x64.Idx) = ix2 ⟨t.val * 5000 + p.val, row_lt t p⟩ k := by
  obtain ⟨e00, e01, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- Entry (p, k) of the bond features' block at point t is entry (5000·t + p, k) of the array. -/
theorem emb_bond (t : Fin cfg1.N) (p : Fin 5000) (k : Fin 64) :
    (((cfg1.win 1).blk t).view.emb (ix2 p k) : S200000x64.Idx) = ix2 ⟨t.val * 5000 + p.val, row_lt t p⟩ k := by
  obtain ⟨-, -, e10, e11, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- The weight's block at every point is the whole weight. -/
theorem emb_weight (t : Fin cfg1.N) (k : Fin 64) (q : Fin 64) :
    (((cfg1.win 2).blk t).view.emb (ix2 k q) : S64x64.Idx) = ix2 k q := by
  obtain ⟨-, -, -, -, e20, e21, -⟩ := idx_facts t
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- The bias's block at every point is the whole bias row. -/
theorem emb_bias (t : Fin cfg1.N) (z : Fin 1) (q : Fin 64) :
    (((cfg1.win 3).blk t).view.emb (ix2 z q) : S1x64.Idx) = ix2 z q := by
  obtain ⟨-, -, -, -, -, -, e30, e31, -⟩ := idx_facts t
  funext a; apply Fin.ext
  match a with
  | ⟨0, _⟩ => show win1_3.index t (0 : Fin 2) * 1 + 1 * z.val = z.val; omega
  | ⟨1, _⟩ => show win1_3.index t (1 : Fin 2) * 64 + 1 * q.val = q.val; omega

/-- Entry (p, q) of the output's block at point t is entry (5000·t + p, q) of the array. -/
theorem emb_out (t : Fin cfg1.N) (p : Fin 5000) (q : Fin 64) :
    (((cfg1.win 4).blk t).view.emb (ix2 p q) : S200000x64.Idx) = ix2 ⟨t.val * 5000 + p.val, row_lt t p⟩ q := by
  obtain ⟨-, -, -, -, -, -, -, -, e40, e41⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- The body's result on the blocks at point t, at entry (p, q), is the projection of the arrays at (5000·t + p, q). -/
theorem body_apply (c : Dev nD) (t : Fin cfg1.N) (p : Fin 5000) (q : Fin 64) :
    k1_pay1 (F := Ideal) (iblk1 V c 0 t) (iblk1 V c 2 t) (iblk1 V c 3 t) (iblk1 V c 1 t) (ix2 p q)
      = Cert.BondConv.projected (V c main_v55) (V c main_v46) (fun j => V c main_v51 (ix2 0 j)) (V c main_arg1)
          (ix2 ⟨t.val * 5000 + p.val, row_lt t p⟩ q) := by
  refine (pay_apply _ _ _ _ p q).trans ?_
  rw [Cert.BondConv.projected_apply]
  have hagg : ∀ k : Fin 64, iblk1 V c 0 t (ix2 p k) = V c main_v55 (ix2 ⟨t.val * 5000 + p.val, row_lt t p⟩ k) := fun k =>
    congrArg (V c main_v55) (emb_agg t p k)
  have hw : ∀ k : Fin 64, iblk1 V c 2 t (ix2 k q) = V c main_v46 (ix2 k q) := fun k =>
    congrArg (V c main_v46) (emb_weight t k q)
  have hb : iblk1 V c 3 t (ix2 0 q) = V c main_v51 (ix2 0 q) := congrArg (V c main_v51) (emb_bias t 0 q)
  have hbond : iblk1 V c 1 t (ix2 p q) = V c main_arg1 (ix2 ⟨t.val * 5000 + p.val, row_lt t p⟩ q) :=
    congrArg (V c main_arg1) (emb_bond t p q)
  exact congrArg₂ (· + ·) (congrArg₂ (· + ·) (Finset.sum_congr rfl fun k _ => congrArg₂ (· * ·) (hagg k) (hw k)) hb) hbond

/-- WHAT POINT t WRITES BACK is block t of the projection of the arrays as the region finds them. -/
theorem flushed_eq (c : Dev nD) (t : Fin cfg1.N) :
    (dat1 (F := Ideal) V c).flushed 4 t = ((cfg1.win 4).blk t).view.read (Elt Ideal)
      (Cert.BondConv.projected (V c main_v55) (V c main_v46) (fun j => V c main_v51 (ix2 0 j)) (V c main_arg1)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S64x64) zero_offsets,
    View.ld_unit_zero (S := S1x64) zero_offsets]
  funext j
  revert j
  show ∀ j : S5000x64.Idx, k1_pay1 (F := Ideal) (iblk1 V c 0 t) (iblk1 V c 2 t) (iblk1 V c 3 t) (iblk1 V c 1 t) j
      = Cert.BondConv.projected (V c main_v55) (V c main_v46) (fun j => V c main_v51 (ix2 0 j)) (V c main_arg1)
          (((cfg1.win 4).blk t).view.emb j)
  intro j
  obtain ⟨p, q, rfl⟩ : ∃ (p : Fin 5000) (q : Fin 64), j = ix2 p q := ⟨j 0, j 1, eq_ix2 j⟩
  rw [emb_out t p q]
  exact body_apply V c t p q

/-- An index of the array is in point t's block iff each coordinate is in the block's range on its axis. -/
theorem mem_blk (t : Fin cfg1.N) (i : S200000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v56).slice (win1_4.rect t)).set ↔ _
  rw [View.set_slice_whole, Rect.mem_set_unit]
  exact Iff.rfl

/-- Every index of the array is in some point's block: row r is in the block of point r / 5000. -/
theorem cover (i : S200000x64.Idx) :
    ∃ t : Fin cfg1.N, (cfg1.win 4).flush t = true ∧ i ∈ ((cfg1.win 4).blk t).view.set := by
  have hi0 : (i 0).val < 200000 := (i 0).isLt
  have hi1 : (i 1).val < 64 := (i 1).isLt
  obtain ⟨t, tv⟩ : ∃ t : Fin cfg1.N, t.val = (i 0).val / 5000 :=
    ⟨⟨(i 0).val / 5000, by rw [grid_points]; omega⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

end Cert.KernelIdeal.Region1

namespace Cert.KernelIdeal.Region1

open Cert.KernelIdeal Cert.KernelIdeal.Gen Idealize.ShloMosaic Idealize.ShloMosaic.TcCoe Idealize.SL.Sem
open Idealize.ShloMosaic.ValueIdx

/-- THE ARRAY after the region: the projection of the aggregated messages, the weight, the bias row and the bond
    features as the region finds them. -/
theorem final (V : (c : Dev nD) → (b : Ref sig .tc) → Buf (Elt Ideal) ((c : Thread nD τ).loc b)) (c : Dev nD) :
    (dat1 (F := Ideal) V c).arrAt 4 cfg1.N
      = Cert.BondConv.projected (V c main_v55) (V c main_v46) (fun j => V c main_v51 (ix2 0 j)) (V c main_arg1) :=
  (dat1 (F := Ideal) V c).arrAt_eq_of_cover 4 _ (fun t _ => flushed_eq V c t) cover

end Cert.KernelIdeal.Region1

end
-- ==== Proof.KernelValue.lean ====
/-
  The idealized kernel's result array as one function of the launch arguments.

  The second region's result is the output layer on what it is entered with: the host's scatter-add of the first
  region's result, the bond features, and the output layer's weight and bias. The first region's result is the message
  array of what IT is entered with, and those arrays are the reference's own first stages of the launch arguments. So
  the result is the output layer on the scatter-added messages of the gathered rows: the term the reference's last
  stage is shown equal to.
-/
import proofs.«179162_j17437567222208_1_alg».proof.Proof.HostKernel
import proofs.«179162_j17437567222208_1_alg».proof.Proof.Region0
import proofs.«179162_j17437567222208_1_alg».proof.Proof.Region1
import proofs.«179162_j17437567222208_1_alg».proof.Proof.Spec

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- Equal arguments give equal message arrays. -/
theorem messages_congr {fi fi' fj fj' ang ang' fc fc' w w' : (⟨2, ![500000, 64]⟩ : Shape).Idx → EReal} {Wc1 Wc1' Wg1 Wg1' : (⟨2, ![256, 64]⟩ : Shape).Idx → EReal} {Wc2 Wc2' Wg2 Wg2' : (⟨2, ![64, 64]⟩ : Shape).Idx → EReal}
    {bc1 bc1' bc2 bc2' bg1 bg1' bg2 bg2' : Fin 64 → EReal}
    (h1 : fi = fi') (h2 : fj = fj') (h3 : ang = ang') (h4 : fc = fc') (h5 : Wc1 = Wc1') (h6 : bc1 = bc1') (h7 : Wc2 = Wc2') (h8 : bc2 = bc2')
    (h9 : Wg1 = Wg1') (h10 : bg1 = bg1') (h11 : Wg2 = Wg2') (h12 : bg2 = bg2') (h13 : w = w') :
    Cert.BondConv.messages fi fj ang fc Wc1 bc1 Wc2 bc2 Wg1 bg1 Wg2 bg2 w
      = Cert.BondConv.messages fi' fj' ang' fc' Wc1' bc1' Wc2' bc2' Wg1' bg1' Wg2' bg2' w' := by
  subst h1 h2 h3 h4 h5 h6 h7 h8 h9 h10 h11 h12 h13; rfl

/-- Equal arguments give equal output arrays. -/
theorem projected_congr {agg agg' bond bond' : (⟨2, ![200000, 64]⟩ : Shape).Idx → EReal} {Wo Wo' : (⟨2, ![64, 64]⟩ : Shape).Idx → EReal} {bo bo' : Fin 64 → EReal}
    (h1 : agg = agg') (h2 : Wo = Wo') (h3 : bo = bo') (h4 : bond = bond') :
    Cert.BondConv.projected agg Wo bo bond = Cert.BondConv.projected agg' Wo' bo' bond' := by
  subst h1 h2 h3 h4; rfl

/-- The first region's result array: the messages of the gathered rows of the launch arguments. -/
theorem region0_result (c : Dev nD) : (dat0 (F := Ideal) (V1 m ρ) c).arrAt 13 cfg0.N
    = (Cert.BondConv.messages (Cert.ReferenceIdeal.Read.val_main_v12 (F := Ideal) (m ((c : Thread nD τ).loc main_arg1)) (m ((c : Thread nD τ).loc main_arg4))) (Cert.ReferenceIdeal.Read.val_main_v19 (F := Ideal) (m ((c : Thread nD τ).loc main_arg1)) (m ((c : Thread nD τ).loc main_arg4))) (m ((c : Thread nD τ).loc main_arg3)) (Cert.ReferenceIdeal.Read.val_main_v26 (F := Ideal) (m ((c : Thread nD τ).loc main_arg0)) (m ((c : Thread nD τ).loc main_arg4)))
        (m ((c : Thread nD τ).loc main_arg5)) (fun j => (m ((c : Thread nD τ).loc main_arg6)) (ix1 j)) (m ((c : Thread nD τ).loc main_arg7)) (fun j => (m ((c : Thread nD τ).loc main_arg8)) (ix1 j)) (m ((c : Thread nD τ).loc main_arg9)) (fun j => (m ((c : Thread nD τ).loc main_arg10)) (ix1 j)) (m ((c : Thread nD τ).loc main_arg11)) (fun j => (m ((c : Thread nD τ).loc main_arg12)) (ix1 j))
        (mulf (F := Ideal) (s := Cert.ReferenceIdeal.S500000x64) (φ := .f32) (Cert.ReferenceIdeal.Read.val_main_v78 (F := Ideal) (m ((c : Thread nD τ).loc main_arg2)) (m ((c : Thread nD τ).loc main_arg4))) (Cert.ReferenceIdeal.Read.val_main_v86 (F := Ideal) (m ((c : Thread nD τ).loc main_arg2)) (m ((c : Thread nD τ).loc main_arg4))))) :=
  (Cert.KernelIdeal.Region0.final (V1 m ρ) c).trans (messages_congr (entry_v12 m ρ c) (entry_v19 m ρ c) (entry_arg3 m ρ c) (entry_v26 m ρ c)
    (entry_v42 m ρ c) (entry_v47 m ρ c) (entry_v43 m ρ c) (entry_v48 m ρ c) (entry_v44 m ρ c) (entry_v49 m ρ c)
    (entry_v45 m ρ c) (entry_v50 m ρ c) (entry_v41 m ρ c))

/-- The result array after the run (the last boundary's contents at the result's buffer). -/
theorem value (c : Dev nD) : W4 m ρ c (Proc.devRef .tc main_v56)
    = (Cert.BondConv.projected
      (Host.scatterAdd (F := Ideal) (φ := .f32) Cert.ReferenceIdeal.scatter_S200000x64_S500000x1_S500000x64_1_0_0_1 (Cert.ReferenceIdeal.Read.val_main_v88 (F := Ideal)) (Cert.ReferenceIdeal.Read.val_main_v89 (F := Ideal) (m ((c : Thread nD τ).loc main_arg4)))
        (Cert.BondConv.messages (Cert.ReferenceIdeal.Read.val_main_v12 (F := Ideal) (m ((c : Thread nD τ).loc main_arg1)) (m ((c : Thread nD τ).loc main_arg4))) (Cert.ReferenceIdeal.Read.val_main_v19 (F := Ideal) (m ((c : Thread nD τ).loc main_arg1)) (m ((c : Thread nD τ).loc main_arg4))) (m ((c : Thread nD τ).loc main_arg3)) (Cert.ReferenceIdeal.Read.val_main_v26 (F := Ideal) (m ((c : Thread nD τ).loc main_arg0)) (m ((c : Thread nD τ).loc main_arg4)))
        (m ((c : Thread nD τ).loc main_arg5)) (fun j => (m ((c : Thread nD τ).loc main_arg6)) (ix1 j)) (m ((c : Thread nD τ).loc main_arg7)) (fun j => (m ((c : Thread nD τ).loc main_arg8)) (ix1 j)) (m ((c : Thread nD τ).loc main_arg9)) (fun j => (m ((c : Thread nD τ).loc main_arg10)) (ix1 j)) (m ((c : Thread nD τ).loc main_arg11)) (fun j => (m ((c : Thread nD τ).loc main_arg12)) (ix1 j))
        (mulf (F := Ideal) (s := Cert.ReferenceIdeal.S500000x64) (φ := .f32) (Cert.ReferenceIdeal.Read.val_main_v78 (F := Ideal) (m ((c : Thread nD τ).loc main_arg2)) (m ((c : Thread nD τ).loc main_arg4))) (Cert.ReferenceIdeal.Read.val_main_v86 (F := Ideal) (m ((c : Thread nD τ).loc main_arg2)) (m ((c : Thread nD τ).loc main_arg4))))))
      (m ((c : Thread nD τ).loc main_arg13)) (fun j => (m ((c : Thread nD τ).loc main_arg14)) (ix1 j)) (m ((c : Thread nD τ).loc main_arg1))) :=
  (W4_arr m ρ c 4).trans ((Cert.KernelIdeal.Region1.final (V3 m ρ) c).trans (projected_congr
    ((entry_v55 m ρ c).trans (congrArg _ (region0_result m ρ c))) (entry_v46 m ρ c) (entry_v51 m ρ c) (entry_arg1 m ρ c)))

end Cert.KernelIdeal.HostSide

end
-- ==== Proof.RefValue.lean ====
/-
  The reference computes the specification's function of its arguments.

  Row r of the joined array is the four gathered feature rows laid end to end. The core is a two-layer perceptron on that
  row: the first layer is Σ_k row k · W₁(k, j) + b₁ j followed by x ↦ x · σ(x), where the program spells σ(x) as
  1 / (1 + exp (-x)); the second layer is the same with W₂, b₂. The gate is a second such perceptron whose last step is σ
  alone. The message entry is core · gate · w₁ · w₂; the specification writes it core · gate · (w₁ · w₂), which is the same
  number because multiplication on the extended reals is associative. The messages are summed into their target rows by
  the scatter-add, which is kept as one function of the message array and never opened: the two sides apply it to equal
  arrays. The last stage is Σ_k agg(r, k) · Wₒ(k, c) + bₒ c + bond(r, c).

  Every lemma below is stated at an explicit entry (r, c); the index maps of each matrix product and of each bias
  broadcast are identified with the row and column they name, and the sums are compared term by term.
-/
import proofs.«179162_j17437567222208_1_alg».proof.Proof.Gen.ReferenceIdeal.Read
import proofs.«179162_j17437567222208_1_alg».proof.Proof.Spec
import proofs.«179162_j17437567222208_1_alg».proof.Proof.LibJoin
import Idealize.ShloMosaic.Lib.IdealHost

noncomputable section

namespace Cert.ReferenceIdeal.RefValue

open Cert.ReferenceIdeal Cert.ReferenceIdeal.Facts₀ Cert.ReferenceIdeal.Read Idealize.ShloMosaic Idealize.ShloMosaic.ValueIdx Cert.BondConv

/-- 1 / (1 + exp (-x)), with 1 the word 0x3F800000, is the logistic function. -/
theorem logistic_expansion (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  simp only [Ideal.hostDivf_def, Ideal.addf_def, Ideal.hostUnary_exp_def, Ideal.hostNegf_def, Ideal.negf_def, Ideal.ofBits_def, Ideal.ofBits_one_f32]
  rfl

/-- The joined array at (r, k) is the joined row r at k. -/
theorem v27_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal))
    (r : Fin 500000) (k : Fin 256) :
    val_main_v27 (F := Ideal) x0 x1 x3 x4 (ix2 r k)
      = joined (val_main_v12 (F := Ideal) x1 x4) (val_main_v19 (F := Ideal) x1 x4) x3 (val_main_v26 (F := Ideal) x0 x4) r k := by
  unfold val_main_v27
  exact concat4_apply 500000 _ _ _ _ concatenates_S500000x64_S500000x64_S500000x64_S500000x64_S500000x256_d1 r k

/-- The core's first layer before its activation, at (r, j). -/
theorem v31_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal)) (x5 : (⟨S256x64, .f32⟩ : BufTy).Contents (Elt Ideal)) (x6 : (⟨S64, .f32⟩ : BufTy).Contents (Elt Ideal))
    (r : Fin 500000) (j : Fin 64) :
    val_main_v31 (F := Ideal) x0 x1 x3 x4 x5 x6 (ix2 r j)
      = (∑ k : Fin 256, (joined (val_main_v12 (F := Ideal) x1 x4) (val_main_v19 (F := Ideal) x1 x4) x3 (val_main_v26 (F := Ideal) x0 x4) r) k * x5 (ix2 k j)) + x6 (ix1 j) := by
  have el : ∀ k : Fin 256, lidx_main_v28 (ix2 r j) k = ix2 r k := fun k =>
    funext fun a => Fin.ext (by match a with | ⟨0, _⟩ => rfl | ⟨1, _⟩ => rfl)
  have er : ∀ k : Fin 256, ridx_main_v28 (ix2 r j) k = ix2 k j := fun k =>
    funext fun a => Fin.ext (by match a with | ⟨0, _⟩ => rfl | ⟨1, _⟩ => rfl)
  have eb : idx_main_v29 (idx_main_v30 (ix2 r j)) = ix1 j :=
    funext fun a => Fin.ext (by match a with | ⟨0, _⟩ => rfl)
  rw [val_main_v31_apply, val_main_v28_apply, val_main_v30_apply, val_main_v29_apply, eb, Ideal.addf_def]
  refine congrArg (· + x6 (ix1 j)) (Finset.sum_congr rfl fun k _ => ?_)
  rw [el, er, v27_at]

/-- The core's hidden layer at (r, j). -/
theorem v38_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal)) (x5 : (⟨S256x64, .f32⟩ : BufTy).Contents (Elt Ideal)) (x6 : (⟨S64, .f32⟩ : BufTy).Contents (Elt Ideal))
    (r : Fin 500000) (j : Fin 64) :
    val_main_v38 (F := Ideal) x0 x1 x3 x4 x5 x6 (ix2 r j)
      = hidden (joined (val_main_v12 (F := Ideal) x1 x4) (val_main_v19 (F := Ideal) x1 x4) x3 (val_main_v26 (F := Ideal) x0 x4) r) x5 (fun j => x6 (ix1 j)) j := by
  rw [val_main_v38_apply, val_main_v37_apply, val_main_v36_apply, val_main_cst_5_apply, val_main_v35_apply, val_main_v34_apply,
    val_main_cst_apply, val_main_v33_apply, val_main_v32_apply, logistic_expansion, Ideal.mulf_def, v31_at]
  rfl

/-- The core's second layer before its activation, at (r, c). -/
theorem v42_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal)) (x5 : (⟨S256x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (r : Fin 500000) (c : Fin 64) :
    val_main_v42 (F := Ideal) x0 x1 x3 x4 x5 x6 x7 x8 (ix2 r c)
      = second (joined (val_main_v12 (F := Ideal) x1 x4) (val_main_v19 (F := Ideal) x1 x4) x3 (val_main_v26 (F := Ideal) x0 x4) r) x5 (fun j => x6 (ix1 j)) x7 (fun j => x8 (ix1 j)) c := by
  have el : ∀ k : Fin 64, lidx_main_v39 (ix2 r c) k = ix2 r k := fun k =>
    funext fun a => Fin.ext (by match a with | ⟨0, _⟩ => rfl | ⟨1, _⟩ => rfl)
  have er : ∀ k : Fin 64, ridx_main_v39 (ix2 r c) k = ix2 k c := fun k =>
    funext fun a => Fin.ext (by match a with | ⟨0, _⟩ => rfl | ⟨1, _⟩ => rfl)
  have eb : idx_main_v40 (idx_main_v41 (ix2 r c)) = ix1 c :=
    funext fun a => Fin.ext (by match a with | ⟨0, _⟩ => rfl)
  rw [val_main_v42_apply, val_main_v39_apply, val_main_v41_apply, val_main_v40_apply, eb, Ideal.addf_def]
  unfold second
  refine congrArg (· + x8 (ix1 c)) (Finset.sum_congr rfl fun k _ => ?_)
  rw [el, er, v38_at]

/-- The core at (r, c): the activation of the second layer. -/
theorem v49_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal)) (x5 : (⟨S256x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal))
    (r : Fin 500000) (c : Fin 64) :
    val_main_v49 (F := Ideal) x0 x1 x3 x4 x5 x6 x7 x8 (ix2 r c)
      = silu (second (joined (val_main_v12 (F := Ideal) x1 x4) (val_main_v19 (F := Ideal) x1 x4) x3 (val_main_v26 (F := Ideal) x0 x4) r) x5 (fun j => x6 (ix1 j)) x7 (fun j => x8 (ix1 j)) c) := by
  rw [val_main_v49_apply, val_main_v48_apply, val_main_v47_apply, val_main_cst_7_apply, val_main_v46_apply, val_main_v45_apply,
    val_main_cst_6_apply, val_main_v44_apply, val_main_v43_apply, logistic_expansion, Ideal.mulf_def, v42_at]
  rfl

/-- The gate's first layer before its activation, at (r, j). -/
theorem v53_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal)) (x9 : (⟨S256x64, .f32⟩ : BufTy).Contents (Elt Ideal)) (x10 : (⟨S64, .f32⟩ : BufTy).Contents (Elt Ideal))
    (r : Fin 500000) (j : Fin 64) :
    val_main_v53 (F := Ideal) x0 x1 x3 x4 x9 x10 (ix2 r j)
      = (∑ k : Fin 256, (joined (val_main_v12 (F := Ideal) x1 x4) (val_main_v19 (F := Ideal) x1 x4) x3 (val_main_v26 (F := Ideal) x0 x4) r) k * x9 (ix2 k j)) + x10 (ix1 j) := by
  have el : ∀ k : Fin 256, lidx_main_v50 (ix2 r j) k = ix2 r k := fun k =>
    funext fun a => Fin.ext (by match a with | ⟨0, _⟩ => rfl | ⟨1, _⟩ => rfl)
  have er : ∀ k : Fin 256, ridx_main_v50 (ix2 r j) k = ix2 k j := fun k =>
    funext fun a => Fin.ext (by match a with | ⟨0, _⟩ => rfl | ⟨1, _⟩ => rfl)
  have eb : idx_main_v51 (idx_main_v52 (ix2 r j)) = ix1 j :=
    funext fun a => Fin.ext (by match a with | ⟨0, _⟩ => rfl)
  rw [val_main_v53_apply, val_main_v50_apply, val_main_v52_apply, val_main_v51_apply, eb, Ideal.addf_def]
  refine congrArg (· + x10 (ix1 j)) (Finset.sum_congr rfl fun k _ => ?_)
  rw [el, er, v27_at]

/-- The gate's hidden layer at (r, j). -/
theorem v60_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal)) (x9 : (⟨S256x64, .f32⟩ : BufTy).Contents (Elt Ideal)) (x10 : (⟨S64, .f32⟩ : BufTy).Contents (Elt Ideal))
    (r : Fin 500000) (j : Fin 64) :
    val_main_v60 (F := Ideal) x0 x1 x3 x4 x9 x10 (ix2 r j)
      = hidden (joined (val_main_v12 (F := Ideal) x1 x4) (val_main_v19 (F := Ideal) x1 x4) x3 (val_main_v26 (F := Ideal) x0 x4) r) x9 (fun j => x10 (ix1 j)) j := by
  rw [val_main_v60_apply, val_main_v59_apply, val_main_v58_apply, val_main_cst_9_apply, val_main_v57_apply, val_main_v56_apply,
    val_main_cst_8_apply, val_main_v55_apply, val_main_v54_apply, logistic_expansion, Ideal.mulf_def, v53_at]
  rfl

/-- The gate's second layer before the logistic function, at (r, c). -/
theorem v64_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal)) (x9 : (⟨S256x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal))
    (r : Fin 500000) (c : Fin 64) :
    val_main_v64 (F := Ideal) x0 x1 x3 x4 x9 x10 x11 x12 (ix2 r c)
      = second (joined (val_main_v12 (F := Ideal) x1 x4) (val_main_v19 (F := Ideal) x1 x4) x3 (val_main_v26 (F := Ideal) x0 x4) r) x9 (fun j => x10 (ix1 j)) x11 (fun j => x12 (ix1 j)) c := by
  have el : ∀ k : Fin 64, lidx_main_v61 (ix2 r c) k = ix2 r k := fun k =>
    funext fun a => Fin.ext (by match a with | ⟨0, _⟩ => rfl | ⟨1, _⟩ => rfl)
  have er : ∀ k : Fin 64, ridx_main_v61 (ix2 r c) k = ix2 k c := fun k =>
    funext fun a => Fin.ext (by match a with | ⟨0, _⟩ => rfl | ⟨1, _⟩ => rfl)
  have eb : idx_main_v62 (idx_main_v63 (ix2 r c)) = ix1 c :=
    funext fun a => Fin.ext (by match a with | ⟨0, _⟩ => rfl)
  rw [val_main_v64_apply, val_main_v61_apply, val_main_v63_apply, val_main_v62_apply, eb, Ideal.addf_def]
  unfold second
  refine congrArg (· + x12 (ix1 c)) (Finset.sum_congr rfl fun k _ => ?_)
  rw [el, er, v60_at]

/-- The gate at (r, c): the logistic function of the second layer. -/
theorem v70_at (x0 : (⟨S40000x64, .f32⟩ : BufTy).Contents (Elt Ideal)) (x1 : (⟨S200000x64, .f32⟩ : BufTy).Contents (Elt Ideal)) (x3 : (⟨S500000x64, .f32⟩ : BufTy).Contents (Elt Ideal)) (x4 : (⟨S500000x3, .i32⟩ : BufTy).Contents (Elt Ideal)) (x9 : (⟨S256x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal))
    (r : Fin 500000) (c : Fin 64) :
    val_main_v70 (F := Ideal) x0 x1 x3 x4 x9 x10 x11 x12 (ix2 r c)
      = Ideal.logistic (second (joined (val_main_v12 (F := Ideal) x1 x4) (val_main_v19 (F := Ideal) x1 x4) x3 (val_main_v26 (F := Ideal) x0 x4) r) x9 (fun j => x10 (ix1 j)) x11 (fun j => x12 (ix1 j)) c) := by
  rw [val_main_v70_apply, val_main_v69_apply, val_main_cst_11_apply, val_main_v68_apply, val_main_v67_apply,
    val_main_cst_10_apply, val_main_v66_apply, val_main_v65_apply, logistic_expansion, v64_at]

/-- One entry of the weighted message array: core · gate · (w₁ · w₂), the weights' product re-associated. -/
theorem v87_at (x0 : (⟨S40000x64, .f32⟩ : BufTy).Contents (Elt Ideal)) (x1 x2 : (⟨S200000x64, .f32⟩ : BufTy).Contents (Elt Ideal)) (x3 : (⟨S500000x64, .f32⟩ : BufTy).Contents (Elt Ideal)) (x4 : (⟨S500000x3, .i32⟩ : BufTy).Contents (Elt Ideal)) (x5 : (⟨S256x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal))
    (r : Fin 500000) (c : Fin 64) :
    val_main_v87 (F := Ideal) x0 x1 x2 x3 x4 x5 x6 x7 x8 x9 x10 x11 x12 (ix2 r c)
      = (Cert.BondConv.messages (val_main_v12 (F := Ideal) x1 x4) (val_main_v19 (F := Ideal) x1 x4) x3 (val_main_v26 (F := Ideal) x0 x4)
              x5 (fun j => x6 (ix1 j)) x7 (fun j => x8 (ix1 j)) x9 (fun j => x10 (ix1 j)) x11 (fun j => x12 (ix1 j))
              (mulf (F := Ideal) (φ := .f32) (val_main_v78 (F := Ideal) x2 x4) (val_main_v86 (F := Ideal) x2 x4))) (ix2 r c) := by
  rw [val_main_v87_apply, val_main_v79_apply, val_main_v71_apply, v49_at, v70_at, messages_apply]
  unfold message
  rw [mulf_apply]
  simp only [Ideal.mulf_def]
  exact mul_assoc _ _ _

/-- The weighted message array is the specification's, as functions. -/
theorem v87_eq (x0 : (⟨S40000x64, .f32⟩ : BufTy).Contents (Elt Ideal)) (x1 x2 : (⟨S200000x64, .f32⟩ : BufTy).Contents (Elt Ideal)) (x3 : (⟨S500000x64, .f32⟩ : BufTy).Contents (Elt Ideal)) (x4 : (⟨S500000x3, .i32⟩ : BufTy).Contents (Elt Ideal)) (x5 : (⟨S256x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v87 (F := Ideal) x0 x1 x2 x3 x4 x5 x6 x7 x8 x9 x10 x11 x12
      = (Cert.BondConv.messages (val_main_v12 (F := Ideal) x1 x4) (val_main_v19 (F := Ideal) x1 x4) x3 (val_main_v26 (F := Ideal) x0 x4)
              x5 (fun j => x6 (ix1 j)) x7 (fun j => x8 (ix1 j)) x9 (fun j => x10 (ix1 j)) x11 (fun j => x12 (ix1 j))
              (mulf (F := Ideal) (φ := .f32) (val_main_v78 (F := Ideal) x2 x4) (val_main_v86 (F := Ideal) x2 x4))) := by
  funext i
  obtain ⟨r, c, rfl⟩ : ∃ (r : Fin 500000) (c : Fin 64), i = ix2 r c := ⟨i 0, i 1, eq_ix2 i⟩
  exact v87_at x0 x1 x2 x3 x4 x5 x6 x7 x8 x9 x10 x11 x12 r c

/-- The aggregated messages: the printed scatter-add of the specification's messages into the zero array. -/
theorem v90_eq (x0 : (⟨S40000x64, .f32⟩ : BufTy).Contents (Elt Ideal)) (x1 x2 : (⟨S200000x64, .f32⟩ : BufTy).Contents (Elt Ideal)) (x3 : (⟨S500000x64, .f32⟩ : BufTy).Contents (Elt Ideal)) (x4 : (⟨S500000x3, .i32⟩ : BufTy).Contents (Elt Ideal)) (x5 : (⟨S256x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v90 (F := Ideal) x0 x1 x2 x3 x4 x5 x6 x7 x8 x9 x10 x11 x12
      = Host.scatterAdd (F := Ideal) (φ := .f32) scatter_S200000x64_S500000x1_S500000x64_1_0_0_1 (val_main_v88 (F := Ideal)) (val_main_v89 (F := Ideal) x4)
          (Cert.BondConv.messages (val_main_v12 (F := Ideal) x1 x4) (val_main_v19 (F := Ideal) x1 x4) x3 (val_main_v26 (F := Ideal) x0 x4)
              x5 (fun j => x6 (ix1 j)) x7 (fun j => x8 (ix1 j)) x9 (fun j => x10 (ix1 j)) x11 (fun j => x12 (ix1 j))
              (mulf (F := Ideal) (φ := .f32) (val_main_v78 (F := Ideal) x2 x4) (val_main_v86 (F := Ideal) x2 x4))) := by
  unfold val_main_v90
  rw [v87_eq]

/-- The reference's result is the output layer on the aggregated messages. -/
theorem result_eq (x0 : (⟨S40000x64, .f32⟩ : BufTy).Contents (Elt Ideal)) (x1 x2 : (⟨S200000x64, .f32⟩ : BufTy).Contents (Elt Ideal)) (x3 : (⟨S500000x64, .f32⟩ : BufTy).Contents (Elt Ideal)) (x4 : (⟨S500000x3, .i32⟩ : BufTy).Contents (Elt Ideal)) (x5 : (⟨S256x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S256x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) :
    val_main_v95 (F := Ideal) x0 x1 x2 x3 x4 x5 x6 x7 x8 x9 x10 x11 x12 x13 x14
      = Cert.BondConv.projected
          (Host.scatterAdd (F := Ideal) (φ := .f32) scatter_S200000x64_S500000x1_S500000x64_1_0_0_1 (val_main_v88 (F := Ideal)) (val_main_v89 (F := Ideal) x4)
            (Cert.BondConv.messages (val_main_v12 (F := Ideal) x1 x4) (val_main_v19 (F := Ideal) x1 x4) x3 (val_main_v26 (F := Ideal) x0 x4)
              x5 (fun j => x6 (ix1 j)) x7 (fun j => x8 (ix1 j)) x9 (fun j => x10 (ix1 j)) x11 (fun j => x12 (ix1 j))
              (mulf (F := Ideal) (φ := .f32) (val_main_v78 (F := Ideal) x2 x4) (val_main_v86 (F := Ideal) x2 x4))))
          x13 (fun j => x14 (ix1 j)) x1 := by
  funext i
  obtain ⟨r, c, rfl⟩ : ∃ (r : Fin 200000) (c : Fin 64), i = ix2 r c := ⟨i 0, i 1, eq_ix2 i⟩
  have el : ∀ k : Fin 64, lidx_main_v91 (ix2 r c) k = ix2 r k := fun k =>
    funext fun a => Fin.ext (by match a with | ⟨0, _⟩ => rfl | ⟨1, _⟩ => rfl)
  have er : ∀ k : Fin 64, ridx_main_v91 (ix2 r c) k = ix2 k c := fun k =>
    funext fun a => Fin.ext (by match a with | ⟨0, _⟩ => rfl | ⟨1, _⟩ => rfl)
  have eb : idx_main_v92 (idx_main_v93 (ix2 r c)) = ix1 c :=
    funext fun a => Fin.ext (by match a with | ⟨0, _⟩ => rfl)
  rw [val_main_v95_apply, val_main_v94_apply, val_main_v91_apply, val_main_v93_apply, val_main_v92_apply, eb, v90_eq,
    projected_apply, Ideal.addf_def, Ideal.addf_def]
  refine congrArg (· + x14 (ix1 c) + x1 (ix2 r c)) (Finset.sum_congr rfl fun k _ => ?_)
  rw [el, er]

end Cert.ReferenceIdeal.RefValue

end
-- ==== Proof.lean ====
/-
  The certificate of the bond-convolution kernel against its jnp reference, over the extended reals.

  Both programs gather, for each of the 500000 angles, the feature rows of bond i, bond j and the centre atom and the
  weight rows of the two bonds; put the four feature rows (with the angle's own) through a gated two-layer perceptron;
  scale by the two weights; sum the resulting messages into their bond-i rows; and apply one linear layer, a bias and the
  residual. The kernel runs the perceptron and the output layer as two grid-tiled regions over 5000-row blocks, with the
  gathers and the scatter-add on the host between them; the reference is host operations only. On the extended reals a
  change of float format is the identity, a block-tiled matrix product is the whole product, the logistic function is
  1 / (1 + exp (-x)) on both sides, and the one algebraic difference — the kernel multiplies the two bond weights first,
  the reference multiplies them in one after the other — is the associativity of multiplication. No finiteness of the
  inputs is used.

  The three frames: the two kernels' by their generated frame certificates, the reference's by its generated run with
  the result dropped. The idealization rewrote nothing, so it preserves the kernel trivially. For the value claim the
  kernel's run is taken with the result array kept (`Gen.run`), its contents computed as a function of the launch
  arguments (`HostSide.value`), and the reference's last stage shown to be the same function (`RefValue.result_eq`).
-/
import proofs.«179162_j17437567222208_1_alg».proof.Defs
import proofs.«179162_j17437567222208_1_alg».proof.Proof.Gen.Kernel
import proofs.«179162_j17437567222208_1_alg».proof.Proof.Gen.Kernel.Skeleton
import proofs.«179162_j17437567222208_1_alg».proof.Proof.Gen.Kernel.Launch
import proofs.«179162_j17437567222208_1_alg».proof.Proof.Gen.Kernel.Points
import proofs.«179162_j17437567222208_1_alg».proof.Proof.Gen.Kernel.Frame
import proofs.«179162_j17437567222208_1_alg».proof.Proof.Gen.KernelIdeal
import proofs.«179162_j17437567222208_1_alg».proof.Proof.Gen.KernelIdeal.Skeleton
import proofs.«179162_j17437567222208_1_alg».proof.Proof.Gen.KernelIdeal.Launch
import proofs.«179162_j17437567222208_1_alg».proof.Proof.Gen.KernelIdeal.Points
import proofs.«179162_j17437567222208_1_alg».proof.Proof.Gen.KernelIdeal.Frame
import proofs.«179162_j17437567222208_1_alg».proof.Proof.Gen.ReferenceIdeal
import proofs.«179162_j17437567222208_1_alg».proof.Proof.Gen.Pre_finite_inputs
import proofs.«179162_j17437567222208_1_alg».proof.Proof.Gen.ReferenceIdeal.Run
import proofs.«179162_j17437567222208_1_alg».proof.Proof.Gen.ReferenceIdeal.Read
import proofs.«179162_j17437567222208_1_alg».proof.Proof.KernelRun
import proofs.«179162_j17437567222208_1_alg».proof.Proof.KernelValue
import proofs.«179162_j17437567222208_1_alg».proof.Proof.RefValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference is host operations only: its run, with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the arguments both programs end with the result array at the output layer on the
    scatter-added messages of the gathered rows. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.HostSide.value m ρ c), (h c).2⟩) (Cert.KernelIdeal.Gen.run (F := Ideal) m ρ), ?_⟩
  refine (θ_run Cert.ReferenceIdeal.defs _ _).mono (fun r h c => ⟨?_, (h c).2⟩) (Cert.ReferenceIdeal.Value.run (F := Ideal) m' ρ')
  obtain ⟨e0, e1, e2, e3, e4, e5, e6, e7, e8, e9, e10, e11, e12, e13, e14⟩ := hagree c
  rw [(h c).1, Cert.ReferenceIdeal.Read.val_main_v95_eq, e0, e1, e2, e3, e4, e5, e6, e7, e8, e9, e10, e11, e12, e13, e14]
  exact Cert.ReferenceIdeal.RefValue.result_eq _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
